-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x1600000 : Shape := ⟨2, ![2, 1600000]⟩
abbrev S4x512 : Shape := ⟨2, ![4, 512]⟩
abbrev S4 : Shape := ⟨1, ![4]⟩
abbrev S128x256 : Shape := ⟨2, ![128, 256]⟩
abbrev S128 : Shape := ⟨1, ![128]⟩
abbrev S_ : Shape := ⟨0, ![]⟩
abbrev S1x1600000 : Shape := ⟨2, ![1, 1600000]⟩
abbrev S1600000 : Shape := ⟨1, ![1600000]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S4x512 : S_.BroadcastsInDim S4x512 (![] : Fin 0 → Fin S4x512.rank)
  reducesTo_S4x512_S_d0_1 : S4x512.ReducesTo [0, 1] S_
  bcast_S_S4 : S_.BroadcastsInDim S4 (![] : Fin 0 → Fin S4.rank)
  reducesTo_S4_S_d0 : S4.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  slices_S2x1600000_S1x1600000_1_0 : S2x1600000.Slices ![1, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg1 : IVec S2x1600000 32) (main_arg5 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : IVec S1x1600000 32 := (extractStridedSlice S1x1600000 ![1, 0] · slices_S2x1600000_S1x1600000_1_0) main_arg1
  let main_v25 : IVec S1600000 32 := shapeCast S1600000 main_v24 shapeCasts_S1x1600000_S1600000
  let main_c_8 : IVec S_ 32 := constantI S_ 32 0#32
  let main_v26 : IVec S1600000 32 := broadcastInDim S1600000 ![] bcast_S_S1600000 main_c_8
  let main_v27 : IVec S1600000 1 := cmpi .sge main_v25 main_v26
  let main_v28 : IVec S1x1600000 32 := (extractStridedSlice S1x1600000 ![1, 0] · slices_S2x1600000_S1x1600000_1_0) main_arg1
  let main_v29 : IVec S1600000 32 := shapeCast S1600000 main_v28 shapeCasts_S1x1600000_S1600000
  let main_c_9 : IVec S_ 32 := constantI S_ 32 50000#32
  let main_v30 : IVec S1600000 32 := broadcastInDim S1600000 ![] bcast_S_S1600000 main_c_9
  let main_v31 : IVec S1600000 1 := cmpi .slt main_v29 main_v30
  let main_v32 : IVec S1600000 1 := andi main_v27 main_v31
  let main_c_10 : IVec S_ 1 := constantI S_ 1 1#1
  let main_v33 : IVec S_ 1 := (fun x v => Host.reduce IntOp.andi x v reducesTo_S1600000_S_d0 h_S_) main_v32 main_c_10
  let main_v34 : IVec S_ 1 := andi main_v23 main_v33
  main_v34

def fn {F : FTy → Type} [FloatOps F] (main_arg0 : FVec F S50000x256 .f32) (main_arg1 : IVec S2x1600000 32) (main_arg2 : FVec F S4x512 .f32) (main_arg3 : FVec F S4 .f32) (main_arg4 : FVec F S128x256 .f32) (main_arg5 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S4x512 .f32 := Host.absf main_arg2
  let main_cst_0 : FVec F S_ .f32 := constant S_ .f32 0x7F800000#32
  let main_v5 : FVec F S4x512 .f32 := broadcastInDim S4x512 ![] bcast_S_S4x512 main_cst_0
  let main_v6 : IVec S4x512 1 := cmpf .olt main_v4 main_v5
  let main_c_1 : IVec S_ 1 := constantI S_ 1 1#1
  let main_v7 : IVec S_ 1 := (fun x v => Host.reduce IntOp.andi x v reducesTo_S4x512_S_d0_1 h_S_) main_v6 main_c_1
  let main_v8 : IVec S_ 1 := andi main_v3 main_v7
  let main_v9 : FVec F S4 .f32 := Host.absf main_arg3
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg1 main_arg5 main_v13 main_v16
-- ==== Kernel.lean ====
abbrev S50000x256 : Shape := ⟨2, ![50000, 256]⟩
abbrev S2x1600000 : Shape := ⟨2, ![2, 1600000]⟩
abbrev S4x512 : Shape := ⟨2, ![4, 512]⟩
abbrev S4 : Shape := ⟨1, ![4]⟩
abbrev S128x256 : Shape := ⟨2, ![128, 256]⟩
abbrev S128 : Shape := ⟨1, ![128]⟩
abbrev S1x1600000 : Shape := ⟨2, ![1, 1600000]⟩
abbrev S1600000 : Shape := ⟨1, ![1600000]⟩
abbrev S4x256 : Shape := ⟨2, ![4, 256]⟩
abbrev S256x4 : Shape := ⟨2, ![256, 4]⟩
abbrev S256x128 : Shape := ⟨2, ![256, 128]⟩
abbrev S256x136 : Shape := ⟨2, ![256, 136]⟩
abbrev S_ : Shape := ⟨0, ![]⟩
abbrev S136 : Shape := ⟨1, ![136]⟩
abbrev S1x136 : Shape := ⟨2, ![1, 136]⟩
abbrev S50000x136 : Shape := ⟨2, ![50000, 136]⟩
abbrev S5000x256 : Shape := ⟨2, ![5000, 256]⟩
abbrev S5000x136 : Shape := ⟨2, ![5000, 136]⟩
abbrev S50000x4 : Shape := ⟨2, ![50000, 4]⟩
abbrev S50000x128 : Shape := ⟨2, ![50000, 128]⟩
abbrev S1600000x1 : Shape := ⟨2, ![1600000, 1]⟩
abbrev S1 : Shape := ⟨1, ![1]⟩
abbrev S1x1 : Shape := ⟨2, ![1, 1]⟩
abbrev S1600000x4 : Shape := ⟨2, ![1600000, 4]⟩
abbrev S1x4 : Shape := ⟨2, ![1, 4]⟩
abbrev S1600000x128 : Shape := ⟨2, ![1600000, 128]⟩
abbrev S10000x1 : Shape := ⟨2, ![10000, 1]⟩
abbrev S10000x128 : Shape := ⟨2, ![10000, 128]⟩

abbrev nBuf : Space → Nat
  | .hbm => 148
  | .vmem => 12
  | .smem => 0
  | _ => 0

abbrev hbmTy0_0 (i : Nat) : BufTy := match i % 128 with
  | 0 => ⟨S50000x256, .f32⟩
  | 1 => ⟨S2x1600000, .i32⟩
  | 2 => ⟨S4x512, .f32⟩
  | 3 => ⟨S4, .f32⟩
  | 4 => ⟨S128x256, .f32⟩
  | 5 => ⟨S128, .f32⟩
  | 6 => ⟨S1x1600000, .i32⟩
  | 7 => ⟨S1600000, .i32⟩
  | 8 => ⟨S1x1600000, .i32⟩
  | 9 => ⟨S1600000, .i32⟩
  | 10 => ⟨S4x256, .f32⟩
  | 11 => ⟨S4x256, .f32⟩
  | 12 => ⟨S256x4, .f32⟩
  | 13 => ⟨S256x4, .f32⟩
  | 14 => ⟨S256x128, .f32⟩
  | 15 => ⟨S256x136, .f32⟩
  | 16 => ⟨S_, .f32⟩
  | 17 => ⟨S4, .f32⟩
  | 18 => ⟨S_, .f32⟩
  | 19 => ⟨S4, .f32⟩
  | 20 => ⟨S136, .f32⟩
  | 21 => ⟨S1x136, .f32⟩
  | 22 => ⟨S50000x136, .f32⟩
  | 23 => ⟨S50000x4, .f32⟩
  | 24 => ⟨S50000x4, .f32⟩
  | 25 => ⟨S50000x128, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1, .i32⟩
  | 35 => ⟨S_, .i32⟩
  | 36 => ⟨S1600000x1, .i32⟩
  | 37 => ⟨S1600000x1, .i1⟩
  | 38 => ⟨S1x1, .i32⟩
  | 39 => ⟨S1600000x1, .i32⟩
  | 40 => ⟨S1600000x1, .i1⟩
  | 41 => ⟨S1600000x1, .i1⟩
  | 42 => ⟨S_, .i1⟩
  | 43 => ⟨S1600000, .i1⟩
  | 44 => ⟨S1600000x4, .f32⟩
  | 45 => ⟨S1600000x4, .i1⟩
  | 46 => ⟨S_, .f32⟩
  | 47 => ⟨S1600000x4, .f32⟩
  | 48 => ⟨S1600000x4, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1, .i32⟩
  | 58 => ⟨S_, .i32⟩
  | 59 => ⟨S1600000x1, .i32⟩
  | 60 => ⟨S1600000x1, .i1⟩
  | 61 => ⟨S1x1, .i32⟩
  | 62 => ⟨S1600000x1, .i32⟩
  | 63 => ⟨S1600000x1, .i1⟩
  | 64 => ⟨S1600000x1, .i1⟩
  | 65 => ⟨S_, .i1⟩
  | 66 => ⟨S1600000, .i1⟩
  | 67 => ⟨S1600000x4, .f32⟩
  | 68 => ⟨S1600000x4, .i1⟩
  | 69 => ⟨S_, .f32⟩
  | 70 => ⟨S1600000x4, .f32⟩
  | 71 => ⟨S1600000x4, .f32⟩
  | 72 => ⟨S1600000x4, .f32⟩
  | 73 => ⟨S1x4, .f32⟩
  | 74 => ⟨S1600000x4, .f32⟩
  | 75 => ⟨S1600000x4, .f32⟩
  | 76 => ⟨S_, .f32⟩
  | 77 => ⟨S1600000x4, .f32⟩
  | 78 => ⟨S1600000x4, .i1⟩
  | 79 => ⟨S_, .f32⟩
  | 80 => ⟨S1600000x4, .f32⟩
  | 81 => ⟨S1600000x4, .f32⟩
  | 82 => ⟨S1600000x4, .f32⟩
  | 83 => ⟨S_, .f32⟩
  | 84 => ⟨S50000x4, .f32⟩
  | 85 => ⟨S1600000x1, .i32⟩
  | 86 => ⟨S50000x4, .f32⟩
  | 87 => ⟨S_, .i32⟩
  | 88 => ⟨S1600000, .i32⟩
  | 89 => ⟨S1600000, .i1⟩
  | 90 => ⟨S_, .i32⟩
  | 91 => ⟨S1600000, .i32⟩
  | 92 => ⟨S1600000, .i32⟩
  | 93 => ⟨S1600000, .i32⟩
  | 94 => ⟨S1600000x1, .i32⟩
  | 95 => ⟨S1, .i32⟩
  | 96 => ⟨S_, .i32⟩
  | 97 => ⟨S1600000x1, .i32⟩
  | 98 => ⟨S1600000x1, .i1⟩
  | 99 => ⟨S1x1, .i32⟩
  | 100 => ⟨S1600000x1, .i32⟩
  | 101 => ⟨S1600000x1, .i1⟩
  | 102 => ⟨S1600000x1, .i1⟩
  | 103 => ⟨S_, .i1⟩
  | 104 => ⟨S1600000, .i1⟩
  | 105 => ⟨S1600000x4, .f32⟩
  | 106 => ⟨S1600000x4, .i1⟩
  | 107 => ⟨S_, .f32⟩
  | 108 => ⟨S1600000x4, .f32⟩
  | 109 => ⟨S1600000x4, .f32⟩
  | 110 => ⟨S1600000x4, .f32⟩
  | 111 => ⟨S_, .f32⟩
  | 112 => ⟨S1600000, .f32⟩
  | 113 => ⟨S_, .f32⟩
  | 114 => ⟨S1600000, .f32⟩
  | 115 => ⟨S1600000, .f32⟩
  | 116 => ⟨S1600000x1, .f32⟩
  | 117 => ⟨S_, .i32⟩
  | 118 => ⟨S1600000, .i32⟩
  | 119 => ⟨S1600000, .i1⟩
  | 120 => ⟨S_, .i32⟩
  | 121 => ⟨S1600000, .i32⟩
  | 122 => ⟨S1600000, .i32⟩
  | 123 => ⟨S1600000, .i32⟩
  | 124 => ⟨S1600000x1, .i32⟩
  | 125 => ⟨S1, .i32⟩
  | 126 => ⟨S_, .i32⟩
  | 127 => ⟨S1600000x1, .i32⟩
  | _ => ⟨S50000x256, .f32⟩

abbrev hbmTy0_1 (i : Nat) : BufTy := match i % 128 with
  | 0 => ⟨S1600000x1, .i1⟩
  | 1 => ⟨S1x1, .i32⟩
  | 2 => ⟨S1600000x1, .i32⟩
  | 3 => ⟨S1600000x1, .i1⟩
  | 4 => ⟨S1600000x1, .i1⟩
  | 5 => ⟨S_, .i1⟩
  | 6 => ⟨S1600000, .i1⟩
  | 7 => ⟨S1600000x128, .f32⟩
  | 8 => ⟨S1600000x128, .i1⟩
  | 9 => ⟨S_, .f32⟩
  | 10 => ⟨S1600000x128, .f32⟩
  | 11 => ⟨S1600000x128, .f32⟩
  | 12 => ⟨S1600000x128, .f32⟩
  | 13 => ⟨S_, .f32⟩
  | 14 => ⟨S50000x128, .f32⟩
  | 15 => ⟨S1600000x1, .i32⟩
  | 16 => ⟨S50000x128, .f32⟩
  | 17 => ⟨S_, .f32⟩
  | 18 => ⟨S50000x128, .f32⟩
  | 19 => ⟨S50000x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x136, .f32⟩
  | .local _ .vmem, ⟨3, _⟩ => ⟨S1x136, .f32⟩
  | .local _ .vmem, ⟨4, _⟩ => ⟨S5000x136, .f32⟩
  | .local _ .vmem, ⟨5, _⟩ => ⟨S5000x136, .f32⟩
  | .local _ .vmem, ⟨6, _⟩ => ⟨S10000x1, .f32⟩
  | .local _ .vmem, ⟨7, _⟩ => ⟨S10000x1, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_c_1 : Ref sig .tc := ⟨.hbm, 34, rfl⟩
abbrev main_call0_c_2 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_3 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_call0_cst : Ref sig .tc := ⟨.hbm, 46, rfl⟩
abbrev main_call0_v15 : Ref sig .tc := ⟨.hbm, 47, rfl⟩
abbrev main_v18 : Ref sig .tc := ⟨.hbm, 48, rfl⟩
abbrev main_call1_c : Ref sig .tc := ⟨.hbm, 49, rfl⟩
abbrev main_call1_v0 : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_c_1 : Ref sig .tc := ⟨.hbm, 57, rfl⟩
abbrev main_call1_c_2 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_3 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_call1_cst : Ref sig .tc := ⟨.hbm, 69, rfl⟩
abbrev main_call1_v15 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_cst_1 : Ref sig .tc := ⟨.hbm, 76, rfl⟩
abbrev main_v24 : Ref sig .tc := ⟨.hbm, 77, rfl⟩
abbrev main_v25 : Ref sig .tc := ⟨.hbm, 78, rfl⟩
abbrev main_cst_2 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_cst_3 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_call3_c : Ref sig .tc := ⟨.hbm, 87, rfl⟩
abbrev main_call3_v0 : Ref sig .tc := ⟨.hbm, 88, rfl⟩
abbrev main_call3_v1 : Ref sig .tc := ⟨.hbm, 89, rfl⟩
abbrev main_call3_c_0 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_call3_v5 : Ref sig .tc := ⟨.hbm, 94, rfl⟩
abbrev main_call3_c_1 : Ref sig .tc := ⟨.hbm, 95, rfl⟩
abbrev main_call3_c_2 : Ref sig .tc := ⟨.hbm, 96, rfl⟩
abbrev main_call3_v6 : Ref sig .tc := ⟨.hbm, 97, rfl⟩
abbrev main_call3_v7 : Ref sig .tc := ⟨.hbm, 98, rfl⟩
abbrev main_call3_v8 : Ref sig .tc := ⟨.hbm, 99, rfl⟩
abbrev main_call3_v9 : Ref sig .tc := ⟨.hbm, 100, rfl⟩
abbrev main_call3_v10 : Ref sig .tc := ⟨.hbm, 101, rfl⟩
abbrev main_call3_v11 : Ref sig .tc := ⟨.hbm, 102, rfl⟩
abbrev main_call3_c_3 : Ref sig .tc := ⟨.hbm, 103, rfl⟩
abbrev main_call3_v12 : Ref sig .tc := ⟨.hbm, 104, rfl⟩
abbrev main_call3_v13 : Ref sig .tc := ⟨.hbm, 105, rfl⟩
abbrev main_call3_v14 : Ref sig .tc := ⟨.hbm, 106, rfl⟩
abbrev main_call3_cst : Ref sig .tc := ⟨.hbm, 107, rfl⟩
abbrev main_call3_v15 : Ref sig .tc := ⟨.hbm, 108, rfl⟩
abbrev main_v32 : Ref sig .tc := ⟨.hbm, 109, rfl⟩
abbrev main_v33 : Ref sig .tc := ⟨.hbm, 110, rfl⟩
abbrev main_cst_4 : Ref sig .tc := ⟨.hbm, 111, rfl⟩
abbrev main_v34 : Ref sig .tc := ⟨.hbm, 112, rfl⟩
abbrev main_cst_5 : Ref sig .tc := ⟨.hbm, 113, rfl⟩
abbrev main_v35 : Ref sig .tc := ⟨.hbm, 114, rfl⟩
abbrev main_v36 : Ref sig .tc := ⟨.hbm, 115, rfl⟩
abbrev main_v37 : Ref sig .tc := ⟨.hbm, 116, rfl⟩
abbrev main_call4_c : Ref sig .tc := ⟨.hbm, 117, rfl⟩
abbrev main_call4_v0 : Ref sig .tc := ⟨.hbm, 118, rfl⟩
abbrev main_call4_v1 : Ref sig .tc := ⟨.hbm, 119, rfl⟩
abbrev main_call4_c_0 : Ref sig .tc := ⟨.hbm, 120, rfl⟩
abbrev main_call4_v2 : Ref sig .tc := ⟨.hbm, 121, rfl⟩
abbrev main_call4_v3 : Ref sig .tc := ⟨.hbm, 122, rfl⟩
abbrev main_call4_v4 : Ref sig .tc := ⟨.hbm, 123, rfl⟩
abbrev main_call4_v5 : Ref sig .tc := ⟨.hbm, 124, rfl⟩
abbrev main_call4_c_1 : Ref sig .tc := ⟨.hbm, 125, rfl⟩
abbrev main_call4_c_2 : Ref sig .tc := ⟨.hbm, 126, rfl⟩
abbrev main_call4_v6 : Ref sig .tc := ⟨.hbm, 127, rfl⟩
abbrev main_call4_v7 : Ref sig .tc := ⟨.hbm, 128, rfl⟩
abbrev main_call4_v8 : Ref sig .tc := ⟨.hbm, 129, rfl⟩
abbrev main_call4_v9 : Ref sig .tc := ⟨.hbm, 130, rfl⟩
abbrev main_call4_v10 : Ref sig .tc := ⟨.hbm, 131, rfl⟩
abbrev main_call4_v11 : Ref sig .tc := ⟨.hbm, 132, rfl⟩
abbrev main_call4_c_3 : Ref sig .tc := ⟨.hbm, 133, rfl⟩
abbrev main_call4_v12 : Ref sig .tc := ⟨.hbm, 134, rfl⟩
abbrev main_call4_v13 : Ref sig .tc := ⟨.hbm, 135, rfl⟩
abbrev main_call4_v14 : Ref sig .tc := ⟨.hbm, 136, rfl⟩
abbrev main_call4_cst : Ref sig .tc := ⟨.hbm, 137, rfl⟩
abbrev main_call4_v15 : Ref sig .tc := ⟨.hbm, 138, rfl⟩
abbrev main_v38 : Ref sig .tc := ⟨.hbm, 139, rfl⟩
abbrev main_v39 : Ref sig .tc := ⟨.hbm, 140, rfl⟩
abbrev main_cst_6 : Ref sig .tc := ⟨.hbm, 141, rfl⟩
abbrev main_v40 : Ref sig .tc := ⟨.hbm, 142, rfl⟩
abbrev main_v41 : Ref sig .tc := ⟨.hbm, 143, rfl⟩
abbrev main_v42 : Ref sig .tc := ⟨.hbm, 144, rfl⟩
abbrev main_call5_cst : Ref sig .tc := ⟨.hbm, 145, rfl⟩
abbrev main_call5_v0 : Ref sig .tc := ⟨.hbm, 146, rfl⟩
abbrev main_v43 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x136 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x136 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x136 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![160], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S4x512_S4x256_0_0 : S4x512.Slices ![0, 0] S4x256
  slices_S4x512_S4x256_0_256 : S4x512.Slices ![0, 256] S4x256
  transposes_S4x256_S256x4_1_0 : S4x256.Transposes [1, 0] S256x4
  transposes_S128x256_S256x128_1_0 : S128x256.Transposes [1, 0] S256x128
  concatenates_S256x4_S256x4_S256x128_S256x136_d1 : Shape.Concatenates [S256x4, S256x4, S256x128] S256x136 1
  bcast_S_S4 : S_.BroadcastsInDim S4 (![] : Fin 0 → Fin S4.rank)
  concatenates_S4_S4_S128_S136_d0 : Shape.Concatenates [S4, S4, S128] S136 0
  shapeCasts_S136_S1x136 : S136.ShapeCasts S1x136
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x136_S256x136_0_0 : ∀ a, (![0, 0] : Fin 2 → Nat) a + S256x136.size a ≤ S256x136.size a
  h_S256x136 : 0 < S256x136.numel
  shapeCasts_S256x136_S256x136 : S256x136.ShapeCasts S256x136
  inb_S1x136_S1x136_0_0 : ∀ a, (![0, 0] : Fin 2 → Nat) a + S1x136.size a ≤ S1x136.size a
  h_S1x136 : 0 < S1x136.numel
  shapeCasts_S1x136_S1x136 : S1x136.ShapeCasts S1x136
  broadcasts_S1x136_S5000x136 : S1x136.Broadcasts S5000x136
  inb_S5000x136_S5000x136_0_0 : ∀ a, (![0, 0] : Fin 2 → Nat) a + S5000x136.size a ≤ S5000x136.size a
  h_S5000x136 : 0 < S5000x136.numel
  slices_S50000x136_S50000x4_0_0 : S50000x136.Slices ![0, 0] S50000x4
  slices_S50000x136_S50000x4_0_4 : S50000x136.Slices ![0, 4] S50000x4
  slices_S50000x136_S50000x128_0_8 : S50000x136.Slices ![0, 8] S50000x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x4_0 : S1600000.BroadcastsInDim S1600000x4 (![0] : Fin 1 → Fin S1600000x4.rank)
  bcast_S_S1600000x4 : S_.BroadcastsInDim S1600000x4 (![] : Fin 0 → Fin S1600000x4.rank)
  bcast_S4_S1x4_1 : S4.BroadcastsInDim S1x4 (![1] : Fin 1 → Fin S1x4.rank)
  bcast_S1x4_S1600000x4_0_1 : S1x4.BroadcastsInDim S1600000x4 (![0, 1] : Fin 2 → Fin S1600000x4.rank)
  bcast_S_S50000x4 : S_.BroadcastsInDim S50000x4 (![] : Fin 0 → Fin S50000x4.rank)
  reducesTo_S1600000x4_S1600000_d1 : S1600000x4.ReducesTo [1] S1600000
  shapeCasts_S1600000_S1600000x1 : S1600000.ShapeCasts S1600000x1
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  broadcasts_S10000x1_S10000x128 : S10000x1.Broadcasts S10000x128
  bcast_S_S50000x128 : S_.BroadcastsInDim S50000x128 (![] : Fin 0 → Fin S50000x128.rank)
  dot_S5000x256_S256x136_S5000x136_1_0_0_1_n_n_wf : DotDims.WF S5000x256 S256x136 S5000x136 [1] [0] [0] [1] [] []
  gather_S50000x4_S1600000x1_S1600000x4_1_0_n_n_0_1_14_wf : GatherDims.WF S50000x4 S1600000x1 S1600000x4 [1] [0] [] [0] [] 1 ![1, 4]
  scatter_S50000x4_S1600000x1_S1600000x4_1_0_0_1_wf : ScatterDims.WF S50000x4 S1600000x1 S1600000x4 [1] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x136.size a ≤ S256x136.size a
  hwx0_1 : ∀ i : grid0.Coords, EltTy.bits .f32 = 32 ∨ (Rect.block (s := S256x136) S256x136.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x136.size a ≤ S1x136.size a
  hwx0_2 : ∀ i : grid0.Coords, EltTy.bits .f32 = 32 ∨ (Rect.block (s := S1x136) S1x136.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x136.size a ≤ S50000x136.size a
  hwx0_3 : ∀ i : grid0.Coords, EltTy.bits .f32 = 32 ∨ (Rect.block (s := S50000x136) S5000x136.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x1.size a ≤ S1600000x1.size a
  hwx1_0 : ∀ i : grid1.Coords, EltTy.bits .f32 = 32 ∨ (Rect.block (s := S1600000x1) S10000x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S1600000x128.size a
  hwx1_1 : ∀ i : grid1.Coords, EltTy.bits .f32 = 32 ∨ (Rect.block (s := S1600000x128) S10000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S1600000x128.size a
  hwx1_2 : ∀ i : grid1.Coords, EltTy.bits .f32 = 32 ∨ (Rect.block (s := S1600000x128) S10000x128.size (cc1_transform_2 i) (hinb1_2 i)).WholeWords (EltTy.packing .f32)

variable [Facts₀]

def dot_S5000x256_S256x136_S5000x136_1_0_0_1_n_n : DotDims S5000x256 S256x136 S5000x136 where
  lhsContracting := [1]
  rhsContracting := [0]
  lhsNonContracting := [0]
  rhsNonContracting := [1]
  lhsBatch := []
  rhsBatch := []
  wf := dot_S5000x256_S256x136_S5000x136_1_0_0_1_n_n_wf
def gather_S50000x4_S1600000x1_S1600000x4_1_0_n_n_0_1_14 : GatherDims S50000x4 S1600000x1 S1600000x4 where
  offsetDims := [1]
  collapsedSliceDims := [0]
  operandBatchingDims := []
  startIndicesBatchingDims := []
  startIndexMap := [0]
  indexVectorDim := 1
  sliceSizes := ![1, 4]
  wf := gather_S50000x4_S1600000x1_S1600000x4_1_0_n_n_0_1_14_wf
def scatter_S50000x4_S1600000x1_S1600000x4_1_0_0_1 : ScatterDims S50000x4 S1600000x1 S1600000x4 where
  updateWindowDims := [1]
  insertedWindowDims := [0]
  scatterDimsToOperandDims := [0]
  indexVectorDim := 1
  wf := scatter_S50000x4_S1600000x1_S1600000x4_1_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S256x136.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x136.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x136.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v37) S10000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x1600000 : Shape := ⟨2, ![2, 1600000]⟩
abbrev S4x512 : Shape := ⟨2, ![4, 512]⟩
abbrev S4 : Shape := ⟨1, ![4]⟩
abbrev S128x256 : Shape := ⟨2, ![128, 256]⟩
abbrev S128 : Shape := ⟨1, ![128]⟩
abbrev S1x1600000 : Shape := ⟨2, ![1, 1600000]⟩
abbrev S1600000 : Shape := ⟨1, ![1600000]⟩
abbrev S4x256 : Shape := ⟨2, ![4, 256]⟩
abbrev S256x4 : Shape := ⟨2, ![256, 4]⟩
abbrev S50000x4 : Shape := ⟨2, ![50000, 4]⟩
abbrev S_ : Shape := ⟨0, ![]⟩
abbrev S1600000x1 : Shape := ⟨2, ![1600000, 1]⟩
abbrev S1600000x4 : Shape := ⟨2, ![1600000, 4]⟩
abbrev S1x4 : Shape := ⟨2, ![1, 4]⟩
abbrev S256x128 : Shape := ⟨2, ![256, 128]⟩
abbrev S50000x128 : Shape := ⟨2, ![50000, 128]⟩
abbrev S1x128 : Shape := ⟨2, ![1, 128]⟩
abbrev S1600000x128 : Shape := ⟨2, ![1600000, 128]⟩

abbrev nBuf : Space → Nat
  | .hbm => 88
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x1600000, .i32⟩
  | .hbm, ⟨2, _⟩ => ⟨S4x512, .f32⟩
  | .hbm, ⟨3, _⟩ => ⟨S4, .f32⟩
  | .hbm, ⟨4, _⟩ => ⟨S128x256, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S4x256, .f32⟩
  | .hbm, ⟨11, _⟩ => ⟨S4x256, .f32⟩
  | .hbm, ⟨12, _⟩ => ⟨S256x4, .f32⟩
  | .hbm, ⟨13, _⟩ => ⟨S50000x4, .f32⟩
  | .hbm, ⟨14, _⟩ => ⟨S256x4, .f32⟩
  | .hbm, ⟨15, _⟩ => ⟨S50000x4, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x4, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x4, .f32⟩
  | .hbm, ⟨34, _⟩ => ⟨S1600000x4, .f32⟩
  | .hbm, ⟨35, _⟩ => ⟨S1x4, .f32⟩
  | .hbm, ⟨36, _⟩ => ⟨S1600000x4, .f32⟩
  | .hbm, ⟨37, _⟩ => ⟨S1600000x4, .f32⟩
  | .hbm, ⟨38, _⟩ => ⟨S_, .f32⟩
  | .hbm, ⟨39, _⟩ => ⟨S1600000x4, .f32⟩
  | .hbm, ⟨40, _⟩ => ⟨S1600000x4, .i1⟩
  | .hbm, ⟨41, _⟩ => ⟨S_, .f32⟩
  | .hbm, ⟨42, _⟩ => ⟨S1600000x4, .f32⟩
  | .hbm, ⟨43, _⟩ => ⟨S1600000x4, .f32⟩
  | .hbm, ⟨44, _⟩ => ⟨S1600000x4, .f32⟩
  | .hbm, ⟨45, _⟩ => ⟨S_, .f32⟩
  | .hbm, ⟨46, _⟩ => ⟨S50000x4, .f32⟩
  | .hbm, ⟨47, _⟩ => ⟨S1600000x1, .i32⟩
  | .hbm, ⟨48, _⟩ => ⟨S50000x4, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x4, .f32⟩
  | .hbm, ⟨58, _⟩ => ⟨S1600000x4, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S1600000, .f32⟩
  | .hbm, ⟨63, _⟩ => ⟨S1600000, .f32⟩
  | .hbm, ⟨64, _⟩ => ⟨S256x128, .f32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S1600000x1, .f32⟩
  | .hbm, ⟨70, _⟩ => ⟨S_, .i32⟩
  | .hbm, ⟨71, _⟩ => ⟨S1600000, .i32⟩
  | .hbm, ⟨72, _⟩ => ⟨S1600000, .i1⟩
  | .hbm, ⟨73, _⟩ => ⟨S_, .i32⟩
  | .hbm, ⟨74, _⟩ => ⟨S1600000, .i32⟩
  | .hbm, ⟨75, _⟩ => ⟨S1600000, .i32⟩
  | .hbm, ⟨76, _⟩ => ⟨S1600000, .i32⟩
  | .hbm, ⟨77, _⟩ => ⟨S1600000x1, .i32⟩
  | .hbm, ⟨78, _⟩ => ⟨S1600000x128, .f32⟩
  | .hbm, ⟨79, _⟩ => ⟨S1600000x128, .f32⟩
  | .hbm, ⟨80, _⟩ => ⟨S1600000x128, .f32⟩
  | .hbm, ⟨81, _⟩ => ⟨S_, .f32⟩
  | .hbm, ⟨82, _⟩ => ⟨S50000x128, .f32⟩
  | .hbm, ⟨83, _⟩ => ⟨S1600000x1, .i32⟩
  | .hbm, ⟨84, _⟩ => ⟨S50000x128, .f32⟩
  | .hbm, ⟨85, _⟩ => ⟨S_, .f32⟩
  | .hbm, ⟨86, _⟩ => ⟨S50000x128, .f32⟩
  | .hbm, ⟨87, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_1 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_5 : Ref sig .tc := ⟨.hbm, 49, rfl⟩
abbrev main_v36 : Ref sig .tc := ⟨.hbm, 50, rfl⟩
abbrev main_v37 : Ref sig .tc := ⟨.hbm, 51, rfl⟩
abbrev main_c_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_c_9 : Ref sig .tc := ⟨.hbm, 70, rfl⟩
abbrev main_v53 : Ref sig .tc := ⟨.hbm, 71, rfl⟩
abbrev main_v54 : Ref sig .tc := ⟨.hbm, 72, rfl⟩
abbrev main_c_10 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_11 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_call1_cst : Ref sig .tc := ⟨.hbm, 85, rfl⟩
abbrev main_call1_v0 : Ref sig .tc := ⟨.hbm, 86, rfl⟩
abbrev main_v65 : Ref sig .tc := ⟨.hbm, 87, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S4x512_S4x256_0_0 : S4x512.Slices ![0, 0] S4x256
  slices_S4x512_S4x256_0_256 : S4x512.Slices ![0, 256] S4x256
  transposes_S4x256_S256x4_1_0 : S4x256.Transposes [1, 0] S256x4
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S4_S1x4_1 : S4.BroadcastsInDim S1x4 (![1] : Fin 1 → Fin S1x4.rank)
  bcast_S1x4_S1600000x4_0_1 : S1x4.BroadcastsInDim S1600000x4 (![0, 1] : Fin 2 → Fin S1600000x4.rank)
  bcast_S_S1600000x4 : S_.BroadcastsInDim S1600000x4 (![] : Fin 0 → Fin S1600000x4.rank)
  bcast_S_S50000x4 : S_.BroadcastsInDim S50000x4 (![] : Fin 0 → Fin S50000x4.rank)
  reducesTo_S1600000x4_S1600000_d1 : S1600000x4.ReducesTo [1] S1600000
  h_S_ : 0 < S_.numel
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  dot_S50000x256_S256x4_S50000x4_1_0_0_1_n_n_wf : DotDims.WF S50000x256 S256x4 S50000x4 [1] [0] [0] [1] [] []
  gather_S50000x4_S1600000x1_S1600000x4_1_0_n_n_0_1_14_wf : GatherDims.WF S50000x4 S1600000x1 S1600000x4 [1] [0] [] [0] [] 1 ![1, 4]
  scatter_S50000x4_S1600000x1_S1600000x4_1_0_0_1_wf : ScatterDims.WF S50000x4 S1600000x1 S1600000x4 [1] [0] [0] 1
  dot_S50000x256_S256x128_S50000x128_1_0_0_1_n_n_wf : DotDims.WF S50000x256 S256x128 S50000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1

variable [Facts₀]

def dot_S50000x256_S256x4_S50000x4_1_0_0_1_n_n : DotDims S50000x256 S256x4 S50000x4 where
  lhsContracting := [1]
  rhsContracting := [0]
  lhsNonContracting := [0]
  rhsNonContracting := [1]
  lhsBatch := []
  rhsBatch := []
  wf := dot_S50000x256_S256x4_S50000x4_1_0_0_1_n_n_wf
def gather_S50000x4_S1600000x1_S1600000x4_1_0_n_n_0_1_14 : GatherDims S50000x4 S1600000x1 S1600000x4 where
  offsetDims := [1]
  collapsedSliceDims := [0]
  operandBatchingDims := []
  startIndicesBatchingDims := []
  startIndexMap := [0]
  indexVectorDim := 1
  sliceSizes := ![1, 4]
  wf := gather_S50000x4_S1600000x1_S1600000x4_1_0_n_n_0_1_14_wf
def scatter_S50000x4_S1600000x1_S1600000x4_1_0_0_1 : ScatterDims S50000x4 S1600000x1 S1600000x4 where
  updateWindowDims := [1]
  insertedWindowDims := [0]
  scatterDimsToOperandDims := [0]
  indexVectorDim := 1
  wf := scatter_S50000x4_S1600000x1_S1600000x4_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf

class Facts : Prop extends Facts₀ where

variable [Facts]
-- ==== Proof.Kernel.Proj.lean ====
/-
  The projection region (the first pallas_call): a grid of 10 points; point t stages rows 5000·t … 5000·t + 4999
  of the node features (a 5000 × 256 block), the whole 256 × 136 combined weight matrix and the whole 1 × 136 bias
  row, and writes back the 5000 × 136 block  (block of x) · W + bias  of the output. The weight and the bias windows
  have a constant block index: they are fetched once and every later point finds them where the first fetch put them.
  Stated at a PARAMETER V, the contents of the core's buffers when the region is entered, and at any float instance.
-/
import proofs.«401222_j35476429865592_1_alg».proof.Proof.Gen.Kernel.Launch
import proofs.«401222_j35476429865592_1_alg».proof.Proof.Gen.Kernel.Skeleton
import proofs.«401222_j35476429865592_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Proj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window w's block at grid point t, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or kept from an earlier point,
    for any proof data whose array is V's and whose body leaves the block in place. -/
theorem before_x_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_w_of {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_b_of {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The body's accesses: each staged block is read whole, the output block is stored whole -/

abbrev rX : Rect S5000x256 := Rect.unit (s := S5000x256) ![0, 0] S5000x256.size inb_S5000x256_S5000x256_0_0
abbrev rW : Rect S256x136 := Rect.unit (s := S256x136) ![0, 0] S256x136.size inb_S256x136_S256x136_0_0
abbrev rB : Rect S1x136 := Rect.unit (s := S1x136) ![0, 0] S1x136.size inb_S1x136_S1x136_0_0
abbrev rO : Rect S5000x136 := Rect.unit (s := S5000x136) ![0, 0] S5000x136.size inb_S5000x136_S5000x136_0_0

/-- What the body leaves in the output window's staging buffer, from the three input blocks: its one store. -/
def outBlk (x0 : Vec F S5000x256 .f32) (x1 : Vec F S256x136 .f32) (x2 : Vec F S1x136 .f32) : Vec F S5000x136 .f32 :=
  View.canon [⟨rO, k0_pay1 (View.ld x0 rX) (View.ld x1 rW) (View.ld x2 rB)⟩]

/-- The one store is of the whole block, so it covers the buffer. -/
theorem cover_out (p0 : Vec F S5000x136 .f32) (y : S5000x136.Idx) :
    ∃ pc ∈ ([⟨rO, p0⟩] : List (View.Piece (Elt F) S5000x136 .f32)), y ∈ pc.1.set :=
  View.cover_of_tiled [⟨rO, p0⟩] S5000x136.size (by rfl) y

set_option maxHeartbeats 1000000 in
/-- The body on whole staging memrefs, the inputs' at contents x0 x1 x2 and the output's at anything, runs to the
    continuation holding the inputs' as they were and the output's at outBlk of them. -/
theorem sound_kernel (c : Dev nD) (E : Set ℕ) (i : grid0.Coords)
    (arg1 : Memref sig .tc .vmem S5000x256 .f32) (harg1 : arg1.IsWhole) (arg2 : Memref sig .tc .vmem S256x136 .f32) (harg2 : arg2.IsWhole)
    (arg3 : Memref sig .tc .vmem S1x136 .f32) (harg3 : arg3.IsWhole) (arg4 : Memref sig .tc .vmem S5000x136 .f32) (harg4 : arg4.IsWhole)
    (x0 : Vec F S5000x256 .f32) (x1 : Vec F S256x136 .f32) (x2 : Vec F S1x136 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlk x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

/-! ## The region's proof data -/

/-- The arrays as the region finds them; after the body at point t each input's buffer at its block and the output's
    at outBlk of the input blocks; the invariant the scoped rest and the generator register, untouched; nothing owed. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => outBlk (blk V c 0 t) (blk V c 1 t) (blk V c 2 t)
  Φ _ := Pipeline.ΦA spec0 c
  q _ := fullShare
  owed _ := 0

theorem A_eq (c : Dev nD) (w : Fin cfg0.W) : (dat V c).A w = V c (Pipeline.arrRef spec0 w) := by
  dsimp only [dat]

theorem after_x (c : Dev nD) (t : Fin cfg0.N) : (dat V c).after 0 t = blk V c 0 t := by dsimp only [dat]
theorem after_w (c : Dev nD) (t : Fin cfg0.N) : (dat V c).after 1 t = blk V c 1 t := by dsimp only [dat]
theorem after_b (c : Dev nD) (t : Fin cfg0.N) : (dat V c).after 2 t = blk V c 2 t := by dsimp only [dat]
theorem after_out (c : Dev nD) (t : Fin cfg0.N) :
    (dat V c).after 3 t = outBlk (blk V c 0 t) (blk V c 1 t) (blk V c 2 t) := by dsimp only [dat]

theorem before_x (c : Dev nD) (t : Fin cfg0.N) (d) : (dat V c).before 0 t d = blk V c 0 t :=
  before_x_of V (dat V c) (A_eq V c 0) (after_x V c) t d
theorem before_w (c : Dev nD) (t : Fin cfg0.N) (d) : (dat V c).before 1 t d = blk V c 1 t :=
  before_w_of V (dat V c) (A_eq V c 1) (after_w V c) t d
theorem before_b (c : Dev nD) (t : Fin cfg0.N) (d) : (dat V c).before 2 t d = blk V c 2 t :=
  before_b_of V (dat V c) (A_eq V c 2) (after_b V c) t d

/-! ## The body obligation, at a generic point -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_w, before_b]
  rw [show (dat V c).Φ t.succ = (dat V c).Φ t.castSucc from rfl,
    show (dat V c).owesAt () t.succ = (dat V c).owesAt () t.castSucc from rfl,
    after_x, after_w, after_b, after_out]
  iintro ⟨HΦ, Ho, ⟨%d0, H0⟩, ⟨%d1, H1⟩, ⟨%d2, H2⟩, ⟨%d3, H3⟩⟩
  iapply (sound_kernel c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dat (F := F) V c) (defs₀ (F := F)) Variants.none () Set.univ := fun t => by
  rw [bigSep_W0, bigSep_W0]
  exact sound_body V c t

end Cert.Kernel.Proj

end
-- ==== Proof.Kernel.Combine.lean ====
/-
  The combine region (the second pallas_call): a grid of 160 points; point t stages rows 10000·t … 10000·t + 9999
  of the per-edge coefficient column (a 10000 × 1 block) and of the gathered per-edge feature rows (10000 × 128), and
  writes back the 10000 × 128 block whose row e is the coefficient of edge e times its feature row.
  Stated at a PARAMETER V, the contents of the core's buffers when the region is entered, and at any float instance.
-/
import proofs.«401222_j35476429865592_1_alg».proof.Proof.Gen.Kernel.Launch
import proofs.«401222_j35476429865592_1_alg».proof.Proof.Gen.Kernel.Skeleton
import proofs.«401222_j35476429865592_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Combine

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window w's block at grid point t, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, for any proof data whose array is V's and whose
    body leaves the block in place. -/
theorem before_k_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_f_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-! ## The body's accesses: each staged block is read whole, the output block is stored whole -/

abbrev rK : Rect S10000x1 := Rect.unit (s := S10000x1) ![0, 0] S10000x1.size inb_S10000x1_S10000x1_0_0
abbrev rF : Rect S10000x128 := Rect.unit (s := S10000x128) ![0, 0] S10000x128.size inb_S10000x128_S10000x128_0_0

/-- What the body leaves in the output window's staging buffer, from the two input blocks: its one store. -/
def outBlk (x0 : Vec F S10000x1 .f32) (x1 : Vec F S10000x128 .f32) : Vec F S10000x128 .f32 :=
  View.canon [⟨rF, k1_pay1 (View.ld x0 rK) (View.ld x1 rF)⟩]

/-- The one store is of the whole block, so it covers the buffer. -/
theorem cover_out (p0 : Vec F S10000x128 .f32) (y : S10000x128.Idx) :
    ∃ pc ∈ ([⟨rF, p0⟩] : List (View.Piece (Elt F) S10000x128 .f32)), y ∈ pc.1.set :=
  View.cover_of_tiled [⟨rF, p0⟩] S10000x128.size (by rfl) y

set_option maxHeartbeats 1000000 in
/-- The body on whole staging memrefs, the inputs' at contents x0 x1 and the output's at anything, runs to the
    continuation holding the inputs' as they were and the output's at outBlk of them. -/
theorem sound_kernel (c : Dev nD) (E : Set ℕ) (i : grid1.Coords)
    (arg1 : Memref sig .tc .vmem S10000x1 .f32) (harg1 : arg1.IsWhole) (arg2 : Memref sig .tc .vmem S10000x128 .f32) (harg2 : arg2.IsWhole)
    (arg3 : Memref sig .tc .vmem S10000x128 .f32) (harg3 : arg3.IsWhole)
    (x0 : Vec F S10000x1 .f32) (x1 : Vec F S10000x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (outBlk x0 x1)) -∗ K ⟨⟩))
      ⊢ wp frame (wpE (defs₀ (F := F)) Variants.none c none) E (cc1__combine_kernel i arg1 harg1 arg2 harg2 arg3 harg3) K := by
  simp only [cc1__combine_kernel_eq_skeleton]; unfold cc1__combine_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The region's proof data -/

/-- The arrays as the region finds them; after the body at point t each input's buffer at its block and the output's
    at outBlk of the input blocks; the invariant the scoped rest and the generator register, untouched; nothing owed. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => outBlk (blk V c 0 t) (blk V c 1 t)
  Φ _ := Pipeline.ΦA spec1 c
  q _ := fullShare
  owed _ := 0

theorem A_eq (c : Dev nD) (w : Fin cfg1.W) : (dat V c).A w = V c (Pipeline.arrRef spec1 w) := by
  dsimp only [dat]

theorem after_k (c : Dev nD) (t : Fin cfg1.N) : (dat V c).after 0 t = blk V c 0 t := by dsimp only [dat]
theorem after_f (c : Dev nD) (t : Fin cfg1.N) : (dat V c).after 1 t = blk V c 1 t := by dsimp only [dat]
theorem after_out (c : Dev nD) (t : Fin cfg1.N) :
    (dat V c).after 2 t = outBlk (blk V c 0 t) (blk V c 1 t) := by dsimp only [dat]

theorem before_k (c : Dev nD) (t : Fin cfg1.N) (d) : (dat V c).before 0 t d = blk V c 0 t :=
  before_k_of V (dat V c) (A_eq V c 0) (after_k V c) t d
theorem before_f (c : Dev nD) (t : Fin cfg1.N) (d) : (dat V c).before 1 t d = blk V c 1 t :=
  before_f_of V (dat V c) (A_eq V c 1) (after_f V c) t d

/-! ## The body obligation, at a generic point -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_k, before_f]
  rw [show (dat V c).Φ t.succ = (dat V c).Φ t.castSucc from rfl,
    show (dat V c).owesAt () t.succ = (dat V c).owesAt () t.castSucc from rfl,
    after_k, after_f, after_out]
  iintro ⟨HΦ, Ho, ⟨%d0, H0⟩, ⟨%d1, H1⟩, ⟨%d2, H2⟩⟩
  iapply (sound_kernel c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dat (F := F) V c) (defs₀ (F := F)) Variants.none () Set.univ := fun t => by
  rw [bigSep_W1, bigSep_W1]
  exact sound_body V c t

end Cert.Kernel.Combine

end
-- ==== Proof.Kernel.Run.lean ====
/-
  The whole run of @main: fourteen items — the host operations before the projection region, that region, the host
  operations that turn its output into per-edge attention coefficients and gathered feature rows, the combine region,
  and the host operations that sum the weighted rows per source node and clamp at zero.
  Between two items every unscoped buffer of the core is held at a known valuation: the launch contents, then each
  stretch of host operations applied in turn, then, at a region's output array, what the region's write-backs leave.
  Every weakly fair execution terminates, and every final memory holds each unscoped buffer at the last valuation.
-/
import proofs.«401222_j35476429865592_1_alg».proof.Proof.Kernel.Proj
import proofs.«401222_j35476429865592_1_alg».proof.Proof.Kernel.Combine
import proofs.«401222_j35476429865592_1_alg».proof.Proof.Gen.Kernel.Regions

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## What the regions leave -/

/-- The buffers as the projection region finds them. -/
abbrev entryProj : (c : Dev nD) → (b : Ref sig .tc) → Buf (Elt F) ((c : Thread nD τ).loc b) := fun c b => V1 m c b

/-- The buffers when the projection region returns: its arrays at what its write-backs leave, the rest as entered. -/
def afterProj (c : Dev nD) : Valuation τ sig (Elt F) :=
  Pipeline.withArrays spec0 c (V1 m c) fun w => (Proj.dat (entryProj m) c).arrAt w cfg0.N

theorem afterProj_arr (c : Dev nD) (w : Fin cfg0.W) :
    afterProj m c (Proc.devRef .tc (Pipeline.arrRef spec0 w)) = (Proj.dat (entryProj m) c).arrAt w cfg0.N := by
  unfold afterProj; exact Pipeline.withArrays_arr spec0 launch0.win.arr_inj c _ _ w

/-- The contents the projection region leaves, as the family the valuations between items are written over. -/
def outsProj : Outs (F := F) := fun _ r c => afterProj m c (Proc.devRef .tc r)

/-- The buffers as the combine region finds them. -/
abbrev entryComb : (c : Dev nD) → (b : Ref sig .tc) → Buf (Elt F) ((c : Thread nD τ).loc b) := fun c b => V11 m (outsProj m) c b

/-- The buffers when the combine region returns. -/
def afterComb (c : Dev nD) : Valuation τ sig (Elt F) :=
  Pipeline.withArrays spec1 c (V11 m (outsProj m) c) fun w => (Combine.dat (entryComb m) c).arrAt w cfg1.N

theorem afterComb_arr (c : Dev nD) (w : Fin cfg1.W) :
    afterComb m c (Proc.devRef .tc (Pipeline.arrRef spec1 w)) = (Combine.dat (entryComb m) c).arrAt w cfg1.N := by
  unfold afterComb; exact Pipeline.withArrays_arr spec1 launch1.win.arr_inj c _ _ w

/-- What both regions leave: read at item 2 for the projection's output array, at item 12 for the combine's. -/
def outs : Outs (F := F) := fun J r c =>
  match J with
  | 12 => afterComb m c (Proc.devRef .tc r)
  | _ => afterProj m c (Proc.devRef .tc r)

theorem outs_proj (c : Dev nD) : outs m 2 main_v14 c = (Proj.dat (entryProj m) c).arrAt 3 cfg0.N :=
  afterProj_arr m c 3
theorem outs_comb (c : Dev nD) : outs m 12 main_v39 c = (Combine.dat (entryComb m) c).arrAt 2 cfg1.N :=
  afterComb_arr m c 2

/-- Up to the combine region the valuations read only the projection's output. -/
theorem V11_outs (c : Dev nD) : V11 m (outs m) c = V11 m (outsProj m) c := rfl

/-! ## The proof data family and what rides beside the buffers -/

def pdats : (p : Fin 2) → (c : Dev nD) → Dat τ (Elt F) Unit ℕ (UR sig nD τ) ℕ (cfgs p) c
  | ⟨0, _⟩ => fun c => Proj.dat (entryProj m) c
  | ⟨1, _⟩ => fun c => Combine.dat (entryComb m) c

abbrev 𝒱₀ : Variants := Variants.none
abbrev L : GSem nD τ sig → Finset Unit := fun _ => ∅
abbrev lv : GSem nD τ sig → Unit → ℕ := fun _ _ => 0

/-- Beside the buffers, through every item: the core's generator register at some state, and the core owing nothing. -/
abbrev R (c : Dev nD) : sProp 𝕄 := iprop((∃ r, prngReg c r) ∗ ∃ W, owes (c : Thread nD τ) (0 : CellTallies nD τ sig Unit) W)
/-- After the combine region only "the core owes nothing" is still needed. -/
abbrev Rlast (c : Dev nD) : sProp 𝕄 := iprop(∃ W, owes (c : Thread nD τ) (0 : CellTallies nD τ sig Unit) W)
abbrev E : Fin 3 → Dev nD → sProp 𝕄 := fun j c => match j with
  | ⟨2, _⟩ => Rlast c
  | _ => R c

/-! ## The projection region's array facts at its exit -/

theorem hF0 (c : Dev nD) (w : Fin cfg0.W) :
    (pdats m 0 c).arrAt w cfg0.N = V2 m (outs m) c (Pipeline.arrRef spec0 w) := by
  match w with
  | ⟨0, _⟩ => exact (((pdats m 0 c).arrAt_in 0 rfl _).trans (Proj.A_eq (entryProj m) c 0)).trans (V2_of m (outs m) c main_arg0 (by decide)).symm
  | ⟨1, _⟩ => exact (((pdats m 0 c).arrAt_in 1 rfl _).trans (Proj.A_eq (entryProj m) c 1)).trans (V2_of m (outs m) c main_v9 (by decide)).symm
  | ⟨2, _⟩ => exact (((pdats m 0 c).arrAt_in 2 rfl _).trans (Proj.A_eq (entryProj m) c 2)).trans (V2_of m (outs m) c main_v13 (by decide)).symm
  | ⟨3, _⟩ =>
    show _ = Function.update (V1 m c) (Proc.devRef .tc main_v14) (outs m 2 main_v14 c) (Proc.devRef .tc main_v14)
    rw [Function.update_self]; exact (outs_proj m c).symm

theorem hrest0 (c : Dev nD) : ∀ b, b ∉ Finset.univ.image (Pipeline.arrRef spec0) → V2 m (outs m) c b = V1 m c b :=
  fun b hb => V2_of m (outs m) c b fun h => hb (by
    rw [List.mem_singleton] at h; subst h
    exact Finset.mem_image.mpr ⟨3, Finset.mem_univ _, rfl⟩)

/-! ## The combine region's array facts at its exit -/

theorem hF1 (c : Dev nD) (w : Fin cfg1.W) :
    (pdats m 1 c).arrAt w cfg1.N = V12 m (outs m) c (Pipeline.arrRef spec1 w) := by
  match w with
  | ⟨0, _⟩ => exact (((pdats m 1 c).arrAt_in 0 rfl _).trans (Combine.A_eq (entryComb m) c 0)).trans (V12_of m (outs m) c main_v37 (by decide)).symm
  | ⟨1, _⟩ => exact (((pdats m 1 c).arrAt_in 1 rfl _).trans (Combine.A_eq (entryComb m) c 1)).trans (V12_of m (outs m) c main_v38 (by decide)).symm
  | ⟨2, _⟩ =>
    show _ = Function.update (V11 m (outs m) c) (Proc.devRef .tc main_v39) (outs m 12 main_v39 c) (Proc.devRef .tc main_v39)
    rw [Function.update_self]; exact (outs_comb m c).symm

theorem hrest1 (c : Dev nD) : ∀ b, b ∉ Finset.univ.image (Pipeline.arrRef spec1) → V12 m (outs m) c b = V11 m (outs m) c b :=
  fun b hb => V12_of m (outs m) c b fun h => hb (by
    rw [List.mem_singleton] at h; subst h
    exact Finset.mem_image.mpr ⟨2, Finset.mem_univ _, rfl⟩)

/-! ## The regions as segments -/

set_option backward.isDefEq.respectTransparency.types false in
/-- The projection region over the thread state: entered with every unscoped buffer at the valuation after the first
    host stretch, left with its output array at what the write-backs leave. -/
def regProj : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation (entryProj m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (entryProj m c)
  hentry c := by
    rw [Pipeline.ownSems0_none]
    have hsplit := Pipeline.arrays_of_unscopedBufs (p := 0) (pcfgs (F := F)) adm (pdats m) launch0.win launch0.arr_whole c
      ((pdats m 0 c).share_full fun _ => rfl) (entryProj m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (entryProj m c) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The combine region over the thread state: entered with every unscoped buffer at the valuation after the tenth
    item, left with its output array at what the write-backs leave. -/
def regComb : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Combine.body_obligation (entryComb m) c).loose
  hwaits := Pipeline.hwaits_of_owed_zero _ _ _ _ L lv 1 fun _ _ => rfl
  pre c := iprop(StableHlo.held (c : Thread nD τ) (Pipeline.ucRefs τ sig) (V11 m (outs m) c) ∗ R c)
  post c := iprop(StableHlo.held (c : Thread nD τ) (Pipeline.ucRefs τ sig) (V12 m (outs m) c) ∗ Rlast c)
  X c := iprop(∃ r, prngReg c r)
  Y c := iprop(∃ r, prngReg c r)
  Z c := Pipeline.unscopedRest (Ix := Unit) (Name := ℕ) (U := UR sig nD τ) (Lvl := ℕ) spec1 c (entryComb m c)
  hentry c := by
    rw [show V11 m (outs m) c = V11 m (outsProj m) c from rfl, Pipeline.ownSems0_none]
    have hsplit := Pipeline.arrays_of_unscopedBufs (p := 1) (pcfgs (F := F)) adm (pdats m) launch1.win launch1.arr_whole c
      ((pdats m 1 c).share_full fun _ => rfl) (entryComb m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (entryComb m c) (fun b => V12 m (outs m) c b) ((pdats m 1 c).arrAt · cfg1.N) (hF1 m c) (hrest1 m c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-! ## The launch -/

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair execution of @main from memory m with zero counters terminates, nothing faulting, and the final
    memory holds every unscoped buffer of every core at the last valuation. -/
theorem run_main : θ_run defs (onTc (τ := τ) (main (F := F))) ⟨m, fun _ => 0, ρ⟩ (fun r => ∀ c : Dev nD,
      ∀ b ∈ Pipeline.ucRefs τ sig, r.2.mem ((c : Thread nD τ).1, b) = V14 m (outs m) c b) := by
  refine Pipeline.θ_run_regions_kit_dev (pcfgs (F := F)) adm (pdats m) () cellOf_inj emb₁ defs₀ 𝒱₀ L lv m ρ main
    (segs m (outs m) 𝒱₀ L lv E () (pdats m) (regProj m) (regComb m))
    (fun c Q => by
      rewrite [main_chain c, Seg.run_eq_chain,
        show (segs m (outs m) 𝒱₀ L lv E () (pdats m) (regProj m) (regComb m) c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          Prog.lift (.customCall (Pipeline.entry 1) ()),
          StableHlo.seq hostOps2,
          StableHlo.seq hostOps2_1 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V14 m (outs m) c))
    (hch := fun c => ⟨.rfl, .rfl, .rfl, .rfl, .rfl, .rfl, .rfl, .rfl, .rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V14 m (outs m) c b)
    (hfin := fun c s' => by
      iintro ⟨Hh, HSI⟩
      unfold StableHlo.held
      imodintro
      iapply (pointsTo_read_all (Pipeline.ucRefs τ sig) (fun b => (((c : Thread nD τ)).1, b)) (V14 m (outs m) c) s')
      isplitl [Hh] <;> iassumption)
    (hQ := fun s h => h)

/-- The frame: every argument array ends holding its launch contents (no item writes one). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (V14_main_arg0 m (outs m) c),
     (h c _ (mem_uc main_arg1 (by decide))).trans (V14_main_arg1 m (outs m) c),
     (h c _ (mem_uc main_arg2 (by decide))).trans (V14_main_arg2 m (outs m) c),
     (h c _ (mem_uc main_arg3 (by decide))).trans (V14_main_arg3 m (outs m) c),
     (h c _ (mem_uc main_arg4 (by decide))).trans (V14_main_arg4 m (outs m) c),
     (h c _ (mem_uc main_arg5 (by decide))).trans (V14_main_arg5 m (outs m) c)⟩) (run_main m ρ)

end Cert.Kernel.Run

end
-- ==== Proof.KernelIdeal.Proj.lean ====
/-
  The projection region (the first pallas_call): a grid of 10 points; point t stages rows 5000·t … 5000·t + 4999
  of the node features (a 5000 × 256 block), the whole 256 × 136 combined weight matrix and the whole 1 × 136 bias
  row, and writes back the 5000 × 136 block  (block of x) · W + bias  of the output. The weight and the bias windows
  have a constant block index: they are fetched once and every later point finds them where the first fetch put them.
  Stated at a PARAMETER V, the contents of the core's buffers when the region is entered, and at any float instance.
-/
import proofs.«401222_j35476429865592_1_alg».proof.Proof.Gen.KernelIdeal.Launch
import proofs.«401222_j35476429865592_1_alg».proof.Proof.Gen.KernelIdeal.Skeleton
import proofs.«401222_j35476429865592_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window w's block at grid point t, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or kept from an earlier point,
    for any proof data whose array is V's and whose body leaves the block in place. -/
theorem before_x_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_w_of {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_b_of {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The body's accesses: each staged block is read whole, the output block is stored whole -/

abbrev rX : Rect S5000x256 := Rect.unit (s := S5000x256) ![0, 0] S5000x256.size inb_S5000x256_S5000x256_0_0
abbrev rW : Rect S256x136 := Rect.unit (s := S256x136) ![0, 0] S256x136.size inb_S256x136_S256x136_0_0
abbrev rB : Rect S1x136 := Rect.unit (s := S1x136) ![0, 0] S1x136.size inb_S1x136_S1x136_0_0
abbrev rO : Rect S5000x136 := Rect.unit (s := S5000x136) ![0, 0] S5000x136.size inb_S5000x136_S5000x136_0_0

/-- What the body leaves in the output window's staging buffer, from the three input blocks: its one store. -/
def outBlk (x0 : Vec F S5000x256 .f32) (x1 : Vec F S256x136 .f32) (x2 : Vec F S1x136 .f32) : Vec F S5000x136 .f32 :=
  View.canon [⟨rO, k0_pay1 (View.ld x0 rX) (View.ld x1 rW) (View.ld x2 rB)⟩]

/-- The one store is of the whole block, so it covers the buffer. -/
theorem cover_out (p0 : Vec F S5000x136 .f32) (y : S5000x136.Idx) :
    ∃ pc ∈ ([⟨rO, p0⟩] : List (View.Piece (Elt F) S5000x136 .f32)), y ∈ pc.1.set :=
  View.cover_of_tiled [⟨rO, p0⟩] S5000x136.size (by rfl) y

set_option maxHeartbeats 1000000 in
/-- The body on whole staging memrefs, the inputs' at contents x0 x1 x2 and the output's at anything, runs to the
    continuation holding the inputs' as they were and the output's at outBlk of them. -/
theorem sound_kernel (c : Dev nD) (E : Set ℕ) (i : grid0.Coords)
    (arg1 : Memref sig .tc .vmem S5000x256 .f32) (harg1 : arg1.IsWhole) (arg2 : Memref sig .tc .vmem S256x136 .f32) (harg2 : arg2.IsWhole)
    (arg3 : Memref sig .tc .vmem S1x136 .f32) (harg3 : arg3.IsWhole) (arg4 : Memref sig .tc .vmem S5000x136 .f32) (harg4 : arg4.IsWhole)
    (x0 : Vec F S5000x256 .f32) (x1 : Vec F S256x136 .f32) (x2 : Vec F S1x136 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlk x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

/-! ## The region's proof data -/

/-- The arrays as the region finds them; after the body at point t each input's buffer at its block and the output's
    at outBlk of the input blocks; the invariant the scoped rest and the generator register, untouched; nothing owed. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => outBlk (blk V c 0 t) (blk V c 1 t) (blk V c 2 t)
  Φ _ := Pipeline.ΦA spec0 c
  q _ := fullShare
  owed _ := 0

theorem A_eq (c : Dev nD) (w : Fin cfg0.W) : (dat V c).A w = V c (Pipeline.arrRef spec0 w) := by
  dsimp only [dat]

theorem after_x (c : Dev nD) (t : Fin cfg0.N) : (dat V c).after 0 t = blk V c 0 t := by dsimp only [dat]
theorem after_w (c : Dev nD) (t : Fin cfg0.N) : (dat V c).after 1 t = blk V c 1 t := by dsimp only [dat]
theorem after_b (c : Dev nD) (t : Fin cfg0.N) : (dat V c).after 2 t = blk V c 2 t := by dsimp only [dat]
theorem after_out (c : Dev nD) (t : Fin cfg0.N) :
    (dat V c).after 3 t = outBlk (blk V c 0 t) (blk V c 1 t) (blk V c 2 t) := by dsimp only [dat]

theorem before_x (c : Dev nD) (t : Fin cfg0.N) (d) : (dat V c).before 0 t d = blk V c 0 t :=
  before_x_of V (dat V c) (A_eq V c 0) (after_x V c) t d
theorem before_w (c : Dev nD) (t : Fin cfg0.N) (d) : (dat V c).before 1 t d = blk V c 1 t :=
  before_w_of V (dat V c) (A_eq V c 1) (after_w V c) t d
theorem before_b (c : Dev nD) (t : Fin cfg0.N) (d) : (dat V c).before 2 t d = blk V c 2 t :=
  before_b_of V (dat V c) (A_eq V c 2) (after_b V c) t d

/-! ## The body obligation, at a generic point -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_w, before_b]
  rw [show (dat V c).Φ t.succ = (dat V c).Φ t.castSucc from rfl,
    show (dat V c).owesAt () t.succ = (dat V c).owesAt () t.castSucc from rfl,
    after_x, after_w, after_b, after_out]
  iintro ⟨HΦ, Ho, ⟨%d0, H0⟩, ⟨%d1, H1⟩, ⟨%d2, H2⟩, ⟨%d3, H3⟩⟩
  iapply (sound_kernel c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dat (F := F) V c) (defs₀ (F := F)) Variants.none () Set.univ := fun t => by
  rw [bigSep_W0, bigSep_W0]
  exact sound_body V c t

end Cert.KernelIdeal.Proj

end
-- ==== Proof.KernelIdeal.Combine.lean ====
/-
  The combine region (the second pallas_call): a grid of 160 points; point t stages rows 10000·t … 10000·t + 9999
  of the per-edge coefficient column (a 10000 × 1 block) and of the gathered per-edge feature rows (10000 × 128), and
  writes back the 10000 × 128 block whose row e is the coefficient of edge e times its feature row.
  Stated at a PARAMETER V, the contents of the core's buffers when the region is entered, and at any float instance.
-/
import proofs.«401222_j35476429865592_1_alg».proof.Proof.Gen.KernelIdeal.Launch
import proofs.«401222_j35476429865592_1_alg».proof.Proof.Gen.KernelIdeal.Skeleton
import proofs.«401222_j35476429865592_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Combine

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window w's block at grid point t, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, for any proof data whose array is V's and whose
    body leaves the block in place. -/
theorem before_k_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_f_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-! ## The body's accesses: each staged block is read whole, the output block is stored whole -/

abbrev rK : Rect S10000x1 := Rect.unit (s := S10000x1) ![0, 0] S10000x1.size inb_S10000x1_S10000x1_0_0
abbrev rF : Rect S10000x128 := Rect.unit (s := S10000x128) ![0, 0] S10000x128.size inb_S10000x128_S10000x128_0_0

/-- What the body leaves in the output window's staging buffer, from the two input blocks: its one store. -/
def outBlk (x0 : Vec F S10000x1 .f32) (x1 : Vec F S10000x128 .f32) : Vec F S10000x128 .f32 :=
  View.canon [⟨rF, k1_pay1 (View.ld x0 rK) (View.ld x1 rF)⟩]

/-- The one store is of the whole block, so it covers the buffer. -/
theorem cover_out (p0 : Vec F S10000x128 .f32) (y : S10000x128.Idx) :
    ∃ pc ∈ ([⟨rF, p0⟩] : List (View.Piece (Elt F) S10000x128 .f32)), y ∈ pc.1.set :=
  View.cover_of_tiled [⟨rF, p0⟩] S10000x128.size (by rfl) y

set_option maxHeartbeats 1000000 in
/-- The body on whole staging memrefs, the inputs' at contents x0 x1 and the output's at anything, runs to the
    continuation holding the inputs' as they were and the output's at outBlk of them. -/
theorem sound_kernel (c : Dev nD) (E : Set ℕ) (i : grid1.Coords)
    (arg1 : Memref sig .tc .vmem S10000x1 .f32) (harg1 : arg1.IsWhole) (arg2 : Memref sig .tc .vmem S10000x128 .f32) (harg2 : arg2.IsWhole)
    (arg3 : Memref sig .tc .vmem S10000x128 .f32) (harg3 : arg3.IsWhole)
    (x0 : Vec F S10000x1 .f32) (x1 : Vec F S10000x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (outBlk x0 x1)) -∗ K ⟨⟩))
      ⊢ wp frame (wpE (defs₀ (F := F)) Variants.none c none) E (cc1__combine_kernel i arg1 harg1 arg2 harg2 arg3 harg3) K := by
  simp only [cc1__combine_kernel_eq_skeleton]; unfold cc1__combine_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The region's proof data -/

/-- The arrays as the region finds them; after the body at point t each input's buffer at its block and the output's
    at outBlk of the input blocks; the invariant the scoped rest and the generator register, untouched; nothing owed. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => outBlk (blk V c 0 t) (blk V c 1 t)
  Φ _ := Pipeline.ΦA spec1 c
  q _ := fullShare
  owed _ := 0

theorem A_eq (c : Dev nD) (w : Fin cfg1.W) : (dat V c).A w = V c (Pipeline.arrRef spec1 w) := by
  dsimp only [dat]

theorem after_k (c : Dev nD) (t : Fin cfg1.N) : (dat V c).after 0 t = blk V c 0 t := by dsimp only [dat]
theorem after_f (c : Dev nD) (t : Fin cfg1.N) : (dat V c).after 1 t = blk V c 1 t := by dsimp only [dat]
theorem after_out (c : Dev nD) (t : Fin cfg1.N) :
    (dat V c).after 2 t = outBlk (blk V c 0 t) (blk V c 1 t) := by dsimp only [dat]

theorem before_k (c : Dev nD) (t : Fin cfg1.N) (d) : (dat V c).before 0 t d = blk V c 0 t :=
  before_k_of V (dat V c) (A_eq V c 0) (after_k V c) t d
theorem before_f (c : Dev nD) (t : Fin cfg1.N) (d) : (dat V c).before 1 t d = blk V c 1 t :=
  before_f_of V (dat V c) (A_eq V c 1) (after_f V c) t d

/-! ## The body obligation, at a generic point -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_k, before_f]
  rw [show (dat V c).Φ t.succ = (dat V c).Φ t.castSucc from rfl,
    show (dat V c).owesAt () t.succ = (dat V c).owesAt () t.castSucc from rfl,
    after_k, after_f, after_out]
  iintro ⟨HΦ, Ho, ⟨%d0, H0⟩, ⟨%d1, H1⟩, ⟨%d2, H2⟩⟩
  iapply (sound_kernel c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dat (F := F) V c) (defs₀ (F := F)) Variants.none () Set.univ := fun t => by
  rw [bigSep_W1, bigSep_W1]
  exact sound_body V c t

end Cert.KernelIdeal.Combine

end
-- ==== Proof.KernelIdeal.Run.lean ====
/-
  The whole run of @main: fourteen items — the host operations before the projection region, that region, the host
  operations that turn its output into per-edge attention coefficients and gathered feature rows, the combine region,
  and the host operations that sum the weighted rows per source node and clamp at zero.
  Between two items every unscoped buffer of the core is held at a known valuation: the launch contents, then each
  stretch of host operations applied in turn, then, at a region's output array, what the region's write-backs leave.
  Every weakly fair execution terminates, and every final memory holds each unscoped buffer at the last valuation.
-/
import proofs.«401222_j35476429865592_1_alg».proof.Proof.KernelIdeal.Proj
import proofs.«401222_j35476429865592_1_alg».proof.Proof.KernelIdeal.Combine
import proofs.«401222_j35476429865592_1_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## What the regions leave -/

/-- The buffers as the projection region finds them. -/
abbrev entryProj : (c : Dev nD) → (b : Ref sig .tc) → Buf (Elt F) ((c : Thread nD τ).loc b) := fun c b => V1 m c b

/-- The buffers when the projection region returns: its arrays at what its write-backs leave, the rest as entered. -/
def afterProj (c : Dev nD) : Valuation τ sig (Elt F) :=
  Pipeline.withArrays spec0 c (V1 m c) fun w => (Proj.dat (entryProj m) c).arrAt w cfg0.N

theorem afterProj_arr (c : Dev nD) (w : Fin cfg0.W) :
    afterProj m c (Proc.devRef .tc (Pipeline.arrRef spec0 w)) = (Proj.dat (entryProj m) c).arrAt w cfg0.N := by
  unfold afterProj; exact Pipeline.withArrays_arr spec0 launch0.win.arr_inj c _ _ w

/-- The contents the projection region leaves, as the family the valuations between items are written over. -/
def outsProj : Outs (F := F) := fun _ r c => afterProj m c (Proc.devRef .tc r)

/-- The buffers as the combine region finds them. -/
abbrev entryComb : (c : Dev nD) → (b : Ref sig .tc) → Buf (Elt F) ((c : Thread nD τ).loc b) := fun c b => V11 m (outsProj m) c b

/-- The buffers when the combine region returns. -/
def afterComb (c : Dev nD) : Valuation τ sig (Elt F) :=
  Pipeline.withArrays spec1 c (V11 m (outsProj m) c) fun w => (Combine.dat (entryComb m) c).arrAt w cfg1.N

theorem afterComb_arr (c : Dev nD) (w : Fin cfg1.W) :
    afterComb m c (Proc.devRef .tc (Pipeline.arrRef spec1 w)) = (Combine.dat (entryComb m) c).arrAt w cfg1.N := by
  unfold afterComb; exact Pipeline.withArrays_arr spec1 launch1.win.arr_inj c _ _ w

/-- What both regions leave: read at item 2 for the projection's output array, at item 12 for the combine's. -/
def outs : Outs (F := F) := fun J r c =>
  match J with
  | 12 => afterComb m c (Proc.devRef .tc r)
  | _ => afterProj m c (Proc.devRef .tc r)

theorem outs_proj (c : Dev nD) : outs m 2 main_v14 c = (Proj.dat (entryProj m) c).arrAt 3 cfg0.N :=
  afterProj_arr m c 3
theorem outs_comb (c : Dev nD) : outs m 12 main_v39 c = (Combine.dat (entryComb m) c).arrAt 2 cfg1.N :=
  afterComb_arr m c 2

/-- Up to the combine region the valuations read only the projection's output. -/
theorem V11_outs (c : Dev nD) : V11 m (outs m) c = V11 m (outsProj m) c := rfl

/-! ## The proof data family and what rides beside the buffers -/

def pdats : (p : Fin 2) → (c : Dev nD) → Dat τ (Elt F) Unit ℕ (UR sig nD τ) ℕ (cfgs p) c
  | ⟨0, _⟩ => fun c => Proj.dat (entryProj m) c
  | ⟨1, _⟩ => fun c => Combine.dat (entryComb m) c

abbrev 𝒱₀ : Variants := Variants.none
abbrev L : GSem nD τ sig → Finset Unit := fun _ => ∅
abbrev lv : GSem nD τ sig → Unit → ℕ := fun _ _ => 0

/-- Beside the buffers, through every item: the core's generator register at some state, and the core owing nothing. -/
abbrev R (c : Dev nD) : sProp 𝕄 := iprop((∃ r, prngReg c r) ∗ ∃ W, owes (c : Thread nD τ) (0 : CellTallies nD τ sig Unit) W)
/-- After the combine region only "the core owes nothing" is still needed. -/
abbrev Rlast (c : Dev nD) : sProp 𝕄 := iprop(∃ W, owes (c : Thread nD τ) (0 : CellTallies nD τ sig Unit) W)
abbrev E : Fin 3 → Dev nD → sProp 𝕄 := fun j c => match j with
  | ⟨2, _⟩ => Rlast c
  | _ => R c

/-! ## The projection region's array facts at its exit -/

theorem hF0 (c : Dev nD) (w : Fin cfg0.W) :
    (pdats m 0 c).arrAt w cfg0.N = V2 m (outs m) c (Pipeline.arrRef spec0 w) := by
  match w with
  | ⟨0, _⟩ => exact (((pdats m 0 c).arrAt_in 0 rfl _).trans (Proj.A_eq (entryProj m) c 0)).trans (V2_of m (outs m) c main_arg0 (by decide)).symm
  | ⟨1, _⟩ => exact (((pdats m 0 c).arrAt_in 1 rfl _).trans (Proj.A_eq (entryProj m) c 1)).trans (V2_of m (outs m) c main_v9 (by decide)).symm
  | ⟨2, _⟩ => exact (((pdats m 0 c).arrAt_in 2 rfl _).trans (Proj.A_eq (entryProj m) c 2)).trans (V2_of m (outs m) c main_v13 (by decide)).symm
  | ⟨3, _⟩ =>
    show _ = Function.update (V1 m c) (Proc.devRef .tc main_v14) (outs m 2 main_v14 c) (Proc.devRef .tc main_v14)
    rw [Function.update_self]; exact (outs_proj m c).symm

theorem hrest0 (c : Dev nD) : ∀ b, b ∉ Finset.univ.image (Pipeline.arrRef spec0) → V2 m (outs m) c b = V1 m c b :=
  fun b hb => V2_of m (outs m) c b fun h => hb (by
    rw [List.mem_singleton] at h; subst h
    exact Finset.mem_image.mpr ⟨3, Finset.mem_univ _, rfl⟩)

/-! ## The combine region's array facts at its exit -/

theorem hF1 (c : Dev nD) (w : Fin cfg1.W) :
    (pdats m 1 c).arrAt w cfg1.N = V12 m (outs m) c (Pipeline.arrRef spec1 w) := by
  match w with
  | ⟨0, _⟩ => exact (((pdats m 1 c).arrAt_in 0 rfl _).trans (Combine.A_eq (entryComb m) c 0)).trans (V12_of m (outs m) c main_v37 (by decide)).symm
  | ⟨1, _⟩ => exact (((pdats m 1 c).arrAt_in 1 rfl _).trans (Combine.A_eq (entryComb m) c 1)).trans (V12_of m (outs m) c main_v38 (by decide)).symm
  | ⟨2, _⟩ =>
    show _ = Function.update (V11 m (outs m) c) (Proc.devRef .tc main_v39) (outs m 12 main_v39 c) (Proc.devRef .tc main_v39)
    rw [Function.update_self]; exact (outs_comb m c).symm

theorem hrest1 (c : Dev nD) : ∀ b, b ∉ Finset.univ.image (Pipeline.arrRef spec1) → V12 m (outs m) c b = V11 m (outs m) c b :=
  fun b hb => V12_of m (outs m) c b fun h => hb (by
    rw [List.mem_singleton] at h; subst h
    exact Finset.mem_image.mpr ⟨2, Finset.mem_univ _, rfl⟩)

/-! ## The regions as segments -/

set_option backward.isDefEq.respectTransparency.types false in
/-- The projection region over the thread state: entered with every unscoped buffer at the valuation after the first
    host stretch, left with its output array at what the write-backs leave. -/
def regProj : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation (entryProj m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (entryProj m c)
  hentry c := by
    rw [Pipeline.ownSems0_none]
    have hsplit := Pipeline.arrays_of_unscopedBufs (p := 0) (pcfgs (F := F)) adm (pdats m) launch0.win launch0.arr_whole c
      ((pdats m 0 c).share_full fun _ => rfl) (entryProj m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (entryProj m c) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The combine region over the thread state: entered with every unscoped buffer at the valuation after the tenth
    item, left with its output array at what the write-backs leave. -/
def regComb : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Combine.body_obligation (entryComb m) c).loose
  hwaits := Pipeline.hwaits_of_owed_zero _ _ _ _ L lv 1 fun _ _ => rfl
  pre c := iprop(StableHlo.held (c : Thread nD τ) (Pipeline.ucRefs τ sig) (V11 m (outs m) c) ∗ R c)
  post c := iprop(StableHlo.held (c : Thread nD τ) (Pipeline.ucRefs τ sig) (V12 m (outs m) c) ∗ Rlast c)
  X c := iprop(∃ r, prngReg c r)
  Y c := iprop(∃ r, prngReg c r)
  Z c := Pipeline.unscopedRest (Ix := Unit) (Name := ℕ) (U := UR sig nD τ) (Lvl := ℕ) spec1 c (entryComb m c)
  hentry c := by
    rw [show V11 m (outs m) c = V11 m (outsProj m) c from rfl, Pipeline.ownSems0_none]
    have hsplit := Pipeline.arrays_of_unscopedBufs (p := 1) (pcfgs (F := F)) adm (pdats m) launch1.win launch1.arr_whole c
      ((pdats m 1 c).share_full fun _ => rfl) (entryComb m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (entryComb m c) (fun b => V12 m (outs m) c b) ((pdats m 1 c).arrAt · cfg1.N) (hF1 m c) (hrest1 m c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-! ## The launch -/

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair execution of @main from memory m with zero counters terminates, nothing faulting, and the final
    memory holds every unscoped buffer of every core at the last valuation. -/
theorem run_main : θ_run defs (onTc (τ := τ) (main (F := F))) ⟨m, fun _ => 0, ρ⟩ (fun r => ∀ c : Dev nD,
      ∀ b ∈ Pipeline.ucRefs τ sig, r.2.mem ((c : Thread nD τ).1, b) = V14 m (outs m) c b) := by
  refine Pipeline.θ_run_regions_kit_dev (pcfgs (F := F)) adm (pdats m) () cellOf_inj emb₁ defs₀ 𝒱₀ L lv m ρ main
    (segs m (outs m) 𝒱₀ L lv E () (pdats m) (regProj m) (regComb m))
    (fun c Q => by
      rewrite [main_chain c, Seg.run_eq_chain,
        show (segs m (outs m) 𝒱₀ L lv E () (pdats m) (regProj m) (regComb m) c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          Prog.lift (.customCall (Pipeline.entry 1) ()),
          StableHlo.seq hostOps2,
          StableHlo.seq hostOps2_1 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V14 m (outs m) c))
    (hch := fun c => ⟨.rfl, .rfl, .rfl, .rfl, .rfl, .rfl, .rfl, .rfl, .rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V14 m (outs m) c b)
    (hfin := fun c s' => by
      iintro ⟨Hh, HSI⟩
      unfold StableHlo.held
      imodintro
      iapply (pointsTo_read_all (Pipeline.ucRefs τ sig) (fun b => (((c : Thread nD τ)).1, b)) (V14 m (outs m) c) s')
      isplitl [Hh] <;> iassumption)
    (hQ := fun s h => h)

/-- The frame: every argument array ends holding its launch contents (no item writes one). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (V14_main_arg0 m (outs m) c),
     (h c _ (mem_uc main_arg1 (by decide))).trans (V14_main_arg1 m (outs m) c),
     (h c _ (mem_uc main_arg2 (by decide))).trans (V14_main_arg2 m (outs m) c),
     (h c _ (mem_uc main_arg3 (by decide))).trans (V14_main_arg3 m (outs m) c),
     (h c _ (mem_uc main_arg4 (by decide))).trans (V14_main_arg4 m (outs m) c),
     (h c _ (mem_uc main_arg5 (by decide))).trans (V14_main_arg5 m (outs m) c)⟩) (run_main m ρ)

end Cert.KernelIdeal.Run

end
-- ==== Proof.Value.Stages.lean ====
/-
  The host side of the kernel program as functions of arrays.

  Around its two kernel regions @main is plain array arithmetic: it lays the three weight matrices side by side
  (the two halves of the attention weights and the feature weights, each transposed: a 256 × 136 matrix) and the bias
  row beside two rows of zeros (1 × 136); after the projection region it cuts the 50000 × 136 result into the source
  scores (columns 0 … 3), the destination scores (columns 4 … 7) and the projected features (columns 8 … 135); per
  edge it takes the source row of the first and the destination row of the second, adds the bias, applies the leaky
  ramp, sums the result per source node, divides each edge's value by its source node's sum, averages the four heads:
  the edge's coefficient; it takes the destination row of the projected features; after the combine region it sums
  the weighted rows per source node and clamps at zero.

  "take" is jnp.take's printed form: a negative index is wrapped once by the table's height, the row is read at the
  wrapped index clamped into the table, and an index still outside 0 … 49999 after wrapping gets the fill constant
  instead of a row.
-/
import proofs.«401222_j35476429865592_1_alg».proof.Proof.Gen.KernelIdeal
import Idealize.ShloMosaic.Lib.ValueIdx
import Idealize.ShloMosaic.PureOps.Ideal

noncomputable section

namespace Cert.KernelIdeal.Stages

open Cert.KernelIdeal Cert.KernelIdeal.Gen Idealize.ShloMosaic Idealize.ShloMosaic.ValueIdx

variable {F : FTy → Type} [FloatOps F]

/-! ## Before the projection region -/

/-- The source node of each edge: row 0 of the edge array. -/
def src (e : IVec S2x1600000 32) : IVec S1600000 32 :=
  shapeCast _ (extractStridedSlice S1x1600000 ![0, 0] e slices_S2x1600000_S1x1600000_0_0) shapeCasts_S1x1600000_S1600000

/-- The destination node of each edge: row 1 of the edge array. -/
def dst (e : IVec S2x1600000 32) : IVec S1600000 32 :=
  shapeCast _ (extractStridedSlice S1x1600000 ![1, 0] e slices_S2x1600000_S1x1600000_1_0) shapeCasts_S1x1600000_S1600000

/-- The combined weight matrix: the two halves of the attention weights and the feature weights, transposed, side by side. -/
def wcat (aw : FVec F S4x512 .f32) (fw : FVec F S128x256 .f32) : FVec F S256x136 .f32 :=
  concatenate S256x136 1
    [⟨S256x4, transpose S256x4 [1, 0] (extractStridedSlice S4x256 ![0, 0] aw slices_S4x512_S4x256_0_0) transposes_S4x256_S256x4_1_0⟩,
     ⟨S256x4, transpose S256x4 [1, 0] (extractStridedSlice S4x256 ![0, 256] aw slices_S4x512_S4x256_0_256) transposes_S4x256_S256x4_1_0⟩,
     ⟨S256x128, transpose S256x128 [1, 0] fw transposes_S128x256_S256x128_1_0⟩]
    concatenates_S256x4_S256x4_S256x128_S256x136_d1

/-- The combined bias row: eight zeros, then the feature bias. -/
def bcat (fb : FVec F S128 .f32) : FVec F S1x136 .f32 :=
  shapeCast _ (concatenate S136 0
    [⟨S4, broadcastInDim S4 ![] bcast_S_S4 (constant S_ .f32 0x00000000#32)⟩,
     ⟨S4, broadcastInDim S4 ![] bcast_S_S4 (constant S_ .f32 0x00000000#32)⟩,
     ⟨S128, fb⟩]
    concatenates_S4_S4_S128_S136_d0) shapeCasts_S136_S1x136

/-! ## After the projection region: the three column ranges of its output -/

def srcScores (p : FVec F S50000x136 .f32) : FVec F S50000x4 .f32 :=
  extractStridedSlice S50000x4 ![0, 0] p slices_S50000x136_S50000x4_0_0
def dstScores (p : FVec F S50000x136 .f32) : FVec F S50000x4 .f32 :=
  extractStridedSlice S50000x4 ![0, 4] p slices_S50000x136_S50000x4_0_4
def feats (p : FVec F S50000x136 .f32) : FVec F S50000x128 .f32 :=
  extractStridedSlice S50000x128 ![0, 8] p slices_S50000x136_S50000x128_0_8

/-! ## Taking rows -/

/-- A negative index wrapped once by the table's height. -/
def wrap (idx : IVec S1600000 32) : IVec S1600000 32 :=
  select (cmpi .slt idx (broadcastInDim S1600000 ![] bcast_S_S1600000 (constantI S_ 32 0#32)))
    (addi idx (broadcastInDim S1600000 ![] bcast_S_S1600000 (constantI S_ 32 50000#32))) idx

/-- The wrapped index as a one-column array of start indices. -/
def wrapCol (idx : IVec S1600000 32) : IVec S1600000x1 32 :=
  broadcastInDim S1600000x1 ![0] bcast_S1600000_S1600000x1_0 (wrap idx)

/-- Per edge: is the wrapped index inside 0 … 49999? -/
def inRange (idx : IVec S1600000 32) : IVec S1600000 1 :=
  Host.reduce IntOp.andi
    (andi (cmpi .sge (wrapCol idx) (broadcastInDim S1600000x1 ![] bcast_S_S1600000x1 (constantI S_ 32 0#32)))
      (cmpi .sle (wrapCol idx) (broadcastInDim S1600000x1 ![0, 1] bcast_S1x1_S1600000x1_0_1
        (broadcastInDim S1x1 ![1] bcast_S1_S1x1_1 (constantI S1 32 49999#32)))))
    (constantI S_ 1 1#1) reducesTo_S1600000x1_S1600000_d1 h_S_

/-- jnp.take of four-column rows. -/
def take4 (tbl : FVec F S50000x4 .f32) (idx : IVec S1600000 32) : FVec F S1600000x4 .f32 :=
  select (broadcastInDim S1600000x4 ![0] bcast_S1600000_S1600000x4_0 (inRange idx))
    (Host.gather gather_S50000x4_S1600000x1_S1600000x4_1_0_n_n_0_1_14 tbl (wrapCol idx))
    (broadcastInDim S1600000x4 ![] bcast_S_S1600000x4 (constant S_ .f32 0x7FC00000#32))

/-- jnp.take of 128-column rows. -/
def take128 (tbl : FVec F S50000x128 .f32) (idx : IVec S1600000 32) : FVec F S1600000x128 .f32 :=
  select (broadcastInDim S1600000x128 ![0] bcast_S1600000_S1600000x128_0 (inRange idx))
    (Host.gather gather_S50000x128_S1600000x1_S1600000x128_1_0_n_n_0_1_1128 tbl (wrapCol idx))
    (broadcastInDim S1600000x128 ![] bcast_S_S1600000x128 (constant S_ .f32 0x7FC00000#32))

/-! ## Per edge, per head -/

/-- The score before the ramp: source score + destination score + head bias. -/
def rawScore (ss sd : FVec F S50000x4 .f32) (e : IVec S2x1600000 32) (ab : FVec F S4 .f32) : FVec F S1600000x4 .f32 :=
  addf (addf (take4 ss (src e)) (take4 sd (dst e)))
    (broadcastInDim S1600000x4 ![0, 1] bcast_S1x4_S1600000x4_0_1 (broadcastInDim S1x4 ![1] bcast_S4_S1x4_1 ab))

/-- The leaky ramp: the value where it is at least zero, a fifth of it elsewhere. -/
def ramp (v : FVec F S1600000x4 .f32) : FVec F S1600000x4 .f32 :=
  select (cmpf .oge v (broadcastInDim S1600000x4 ![] bcast_S_S1600000x4 (constant S_ .f32 0x00000000#32)))
    v (mulf (broadcastInDim S1600000x4 ![] bcast_S_S1600000x4 (constant S_ .f32 0x3E4CCCCD#32)) v)

/-- Per source node, the sum of its edges' values. -/
def nodeSum4 (v : FVec F S1600000x4 .f32) (e : IVec S2x1600000 32) : FVec F S50000x4 .f32 :=
  Host.scatterAdd scatter_S50000x4_S1600000x1_S1600000x4_1_0_0_1
    (broadcastInDim S50000x4 ![] bcast_S_S50000x4 (constant S_ .f32 0x00000000#32))
    (broadcastInDim S1600000x1 ![0] bcast_S1600000_S1600000x1_0 (src e)) v

/-- The edge's coefficient from its per-head values: each divided by its source node's sum, the mean over the heads,
    as a one-column array. -/
def coeffOf (v : FVec F S1600000x4 .f32) (e : IVec S2x1600000 32) : FVec F S1600000x1 .f32 :=
  shapeCast _ (Host.divf
    (Host.reduceAdd (Host.divf v (take4 (nodeSum4 v e) (src e))) (constant S_ .f32 0x00000000#32) reducesTo_S1600000x4_S1600000_d1 h_S_)
    (broadcastInDim S1600000 ![] bcast_S_S1600000 (constant S_ .f32 0x40800000#32))) shapeCasts_S1600000_S1600000x1

/-- The coefficient column the combine region is handed, from the projection's output. -/
def coeff (p : FVec F S50000x136 .f32) (e : IVec S2x1600000 32) (ab : FVec F S4 .f32) : FVec F S1600000x1 .f32 :=
  coeffOf (ramp (rawScore (srcScores p) (dstScores p) e ab)) e

/-- The gathered feature rows the combine region is handed. -/
def featRows (p : FVec F S50000x136 .f32) (e : IVec S2x1600000 32) : FVec F S1600000x128 .f32 :=
  take128 (feats p) (dst e)

/-! ## After the combine region -/

/-- Per source node the sum of its edges' weighted rows, clamped at zero. -/
def finish (wt : FVec F S1600000x128 .f32) (e : IVec S2x1600000 32) : FVec F S50000x128 .f32 :=
  maximumf
    (Host.scatterAdd scatter_S50000x128_S1600000x1_S1600000x128_1_0_0_1
      (broadcastInDim S50000x128 ![] bcast_S_S50000x128 (constant S_ .f32 0x00000000#32))
      (broadcastInDim S1600000x1 ![0] bcast_S1600000_S1600000x1_0 (src e)) wt)
    (broadcastInDim S50000x128 ![] bcast_S_S50000x128 (constant S_ .f32 0x00000000#32))

/-! ## The two regions as whole-array functions, on the extended reals -/

/-- The projection: row n, column j is the inner product of row n of the features with column j of the weights, plus
    entry j of the bias row. -/
def projFn (x : FVec Ideal S50000x256 .f32) (w : FVec Ideal S256x136 .f32) (b : FVec Ideal S1x136 .f32) :
    FVec Ideal S50000x136 .f32 :=
  fun i => (∑ k : Fin 256, x (ix2 (i 0) k) * w (ix2 k (i 1))) + b (ix2 0 (i 1))

/-- The combine: row e is the coefficient of edge e times row e. -/
def combFn (k : FVec Ideal S1600000x1 .f32) (f : FVec Ideal S1600000x128 .f32) : FVec Ideal S1600000x128 .f32 :=
  fun i => k (ix2 (i 0) 0) * f i

/-- The kernel program's result as a function of its six arguments. -/
def result (x : FVec Ideal S50000x256 .f32) (e : IVec S2x1600000 32) (aw : FVec Ideal S4x512 .f32) (ab : FVec Ideal S4 .f32)
    (fw : FVec Ideal S128x256 .f32) (fb : FVec Ideal S128 .f32) : FVec Ideal S50000x128 .f32 :=
  let p := projFn x (wcat aw fw) (bcat fb)
  finish (combFn (coeff p e ab) (featRows p e)) e

end Cert.KernelIdeal.Stages

end
-- ==== Proof.LibHostStretch.lean ====
/-
  Running a list of host operations in stretches.

  The contents after a list of operations is a fold over the list, so the contents after a concatenation are the
  second part's after the first part's; in particular the contents after the first n + k operations are the contents
  after the k operations that follow the first n, started from the contents after the first n. A buffer that no
  operation of a list writes keeps its contents through every prefix of the list.

  An operation of a module-local function reads and writes its buffers through a transport along the buffer's type;
  writing a value through it and reading it back gives the value.
-/
import Idealize.ShloMosaic.Lib.StableHlo.Run

noncomputable section

namespace Cert.GraphConv

open Idealize.ShloMosaic Idealize.ShloMosaic.StableHlo

variable {τ : Topo} {sig : RefSig} {Val : EltTy → Type}

/-- The contents after one list of operations and then another are the second's after the first's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The first n + k operations are the first n, then the k that follow them. -/
theorem after_take_add (l : List (HloOp τ sig Val)) (n k : Nat) (V : Valuation τ sig Val) :
    after (List.take (n + k) l) V = after (List.take k (List.drop n l)) (after (List.take n l) V) := by
  rw [List.take_add, after_append]

/-- The whole list is its first n operations, then the rest. -/
theorem after_take_drop (l : List (HloOp τ sig Val)) (n : Nat) (V : Valuation τ sig Val) :
    after l V = after (List.drop n l) (after (List.take n l) V) := by
  conv_lhs => rw [← List.take_append_drop n l]
  exact after_append _ _ _

/-- A buffer no operation of the list writes keeps its contents through every prefix of the list. -/
theorem prefix_keeps {b : DevRef τ sig} (l : List (HloOp τ sig Val)) (h : ∀ op ∈ l, b ∉ op.writes) (n : Nat)
    (V : Valuation τ sig Val) : after (List.take n l) V b = V b :=
  after_of_forall_not_mem _ _ fun op ho => h op (List.mem_of_mem_take ho)

/-- A value written to a typed reference's buffer and read back is the value. -/
theorem ofBuf_toBuf {T : BufTy} (x : TRef sig T) (v : T.Contents Val) : x.ofBuf (x.toBuf v) = v := by
  obtain ⟨r, rfl, h2, h3⟩ := x
  rfl

end Cert.GraphConv

end
-- ==== Proof.Value.HostTerm.lean ====
/-
  What the host operations of the kernel program compute, read off the valuations between @main's items: before the
  projection region the combined weights and bias; between the regions, from the projection's output array, the
  coefficient column and the gathered feature rows the combine region is handed; after it, from its output array, the
  result. At any float instance.
-/
import proofs.«401222_j35476429865592_1_alg».proof.Proof.Gen.KernelIdeal.Regions
import proofs.«401222_j35476429865592_1_alg».proof.Proof.Value.Stages
import proofs.«401222_j35476429865592_1_alg».proof.Proof.LibHostStretch

set_option maxRecDepth 16384

noncomputable section

namespace Cert.KernelIdeal.HostTerm

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (outs : Outs (F := F))

/-! A literal reference's buffer type is the declared type of the value it holds, so reading a value from the buffer
    at that type, or writing one to it, is the identity. -/

private theorem ofBuf_v1 (h1 h2 h3) (v : (⟨S1600000, .i32⟩ : BufTy).Contents (Elt F)) :
    (TRef.of main_v1 h1 h2 h3 : TRef sig ⟨S1600000, .i32⟩).ofBuf v = v := rfl
private theorem ofBuf_v3 (h1 h2 h3) (v : (⟨S1600000, .i32⟩ : BufTy).Contents (Elt F)) :
    (TRef.of main_v3 h1 h2 h3 : TRef sig ⟨S1600000, .i32⟩).ofBuf v = v := rfl
private theorem ofBuf_v15 (h1 h2 h3) (v : (⟨S50000x4, .f32⟩ : BufTy).Contents (Elt F)) :
    (TRef.of main_v15 h1 h2 h3 : TRef sig ⟨S50000x4, .f32⟩).ofBuf v = v := rfl
private theorem ofBuf_v16 (h1 h2 h3) (v : (⟨S50000x4, .f32⟩ : BufTy).Contents (Elt F)) :
    (TRef.of main_v16 h1 h2 h3 : TRef sig ⟨S50000x4, .f32⟩).ofBuf v = v := rfl
private theorem ofBuf_v17 (h1 h2 h3) (v : (⟨S50000x128, .f32⟩ : BufTy).Contents (Elt F)) :
    (TRef.of main_v17 h1 h2 h3 : TRef sig ⟨S50000x128, .f32⟩).ofBuf v = v := rfl
private theorem ofBuf_v23 (h1 h2 h3) (v : (⟨S1600000x4, .f32⟩ : BufTy).Contents (Elt F)) :
    (TRef.of main_v23 h1 h2 h3 : TRef sig ⟨S1600000x4, .f32⟩).ofBuf v = v := rfl
private theorem ofBuf_v25 (h1 h2 h3) (v : (⟨S1600000x4, .i1⟩ : BufTy).Contents (Elt F)) :
    (TRef.of main_v25 h1 h2 h3 : TRef sig ⟨S1600000x4, .i1⟩).ofBuf v = v := rfl
private theorem ofBuf_v27 (h1 h2 h3) (v : (⟨S1600000x4, .f32⟩ : BufTy).Contents (Elt F)) :
    (TRef.of main_v27 h1 h2 h3 : TRef sig ⟨S1600000x4, .f32⟩).ofBuf v = v := rfl
private theorem ofBuf_v31 (h1 h2 h3) (v : (⟨S50000x4, .f32⟩ : BufTy).Contents (Elt F)) :
    (TRef.of main_v31 h1 h2 h3 : TRef sig ⟨S50000x4, .f32⟩).ofBuf v = v := rfl
private theorem toBuf_v18 (h1 h2 h3) (v : (⟨S1600000x4, .f32⟩ : BufTy).Contents (Elt F)) :
    (TRef.of main_v18 h1 h2 h3 : TRef sig ⟨S1600000x4, .f32⟩).toBuf v = v := rfl
private theorem toBuf_v19 (h1 h2 h3) (v : (⟨S1600000x4, .f32⟩ : BufTy).Contents (Elt F)) :
    (TRef.of main_v19 h1 h2 h3 : TRef sig ⟨S1600000x4, .f32⟩).toBuf v = v := rfl
private theorem toBuf_v28 (h1 h2 h3) (v : (⟨S1600000x4, .f32⟩ : BufTy).Contents (Elt F)) :
    (TRef.of main_v28 h1 h2 h3 : TRef sig ⟨S1600000x4, .f32⟩).toBuf v = v := rfl
private theorem toBuf_v32 (h1 h2 h3) (v : (⟨S1600000x4, .f32⟩ : BufTy).Contents (Elt F)) :
    (TRef.of main_v32 h1 h2 h3 : TRef sig ⟨S1600000x4, .f32⟩).toBuf v = v := rfl
private theorem toBuf_v38 (h1 h2 h3) (v : (⟨S1600000x128, .f32⟩ : BufTy).Contents (Elt F)) :
    (TRef.of main_v38 h1 h2 h3 : TRef sig ⟨S1600000x128, .f32⟩).toBuf v = v := rfl

/-- The source row of the edge array, as the host operations before the projection region leave it. -/
private theorem V1_src (c : Dev nD) : V1 m c main_v1 = Stages.src (m ((c : Thread nD τ).loc main_arg1)) := by
  dsimp only [V1, V0, hostOps0]
  after_results
  rfl

/-- The destination row of the edge array, likewise. -/
private theorem V1_dst (c : Dev nD) : V1 m c main_v3 = Stages.dst (m ((c : Thread nD τ).loc main_arg1)) := by
  dsimp only [V1, V0, hostOps0]
  after_results
  rfl

/-- After the projection region its output array holds what the region left there. -/
private theorem V2_out (c : Dev nD) : V2 m outs c main_v14 = outs 2 main_v14 c := by
  dsimp only [V2]
  exact Function.update_self ..

/-- The projection region leaves the source row alone. -/
private theorem V2_src (c : Dev nD) : V2 m outs c main_v1 = Stages.src (m ((c : Thread nD τ).loc main_arg1)) :=
  (V2_of m outs c main_v1 (by decide)).trans (V1_src m c)

/-- The projection region leaves the destination row alone. -/
private theorem V2_dst (c : Dev nD) : V2 m outs c main_v3 = Stages.dst (m ((c : Thread nD τ).loc main_arg1)) :=
  (V2_of m outs c main_v3 (by decide)).trans (V1_dst m c)

/-- The head bias reaches the stretch between the regions as launched. -/
private theorem V2_bias (c : Dev nD) : V2 m outs c main_arg3 = m ((c : Thread nD τ).loc main_arg3) :=
  (V2_of m outs c main_arg3 (by decide)).trans ((V1_of m c main_arg3 (by decide)).trans rfl)

/-- After the combine region its output array holds what the region left there. -/
private theorem V12_out (c : Dev nD) : V12 m outs c main_v39 = outs 12 main_v39 c := by
  dsimp only [V12]
  exact Function.update_self ..

/-- Nothing between the regions, nor the combine region, touches the source row. -/
private theorem V12_src (c : Dev nD) : V12 m outs c main_v1 = Stages.src (m ((c : Thread nD τ).loc main_arg1)) :=
  (V12_of m outs c main_v1 (by decide)).trans <| (V11_of m outs c main_v1 (by decide)).trans <|
  (V10_of m outs c main_v1 (by decide)).trans <| (V9_of m outs c main_v1 (by decide)).trans <|
  (V8_of m outs c main_v1 (by decide)).trans <| (V7_of m outs c main_v1 (by decide)).trans <|
  (V6_of m outs c main_v1 (by decide)).trans <| (V5_of m outs c main_v1 (by decide)).trans <|
  (V4_of m outs c main_v1 (by decide)).trans <| (V3_of m outs c main_v1 (by decide)).trans <| V2_src m outs c

/-- The features reach the projection region as launched. -/
theorem entry_x (c : Dev nD) : V1 m c main_arg0 = m ((c : Thread nD τ).loc main_arg0) :=
  (V1_of m c main_arg0 (by decide)).trans rfl

/-- The combined weights the projection region is handed. -/
theorem entry_w (c : Dev nD) :
    V1 m c main_v9 = Stages.wcat (m ((c : Thread nD τ).loc main_arg2)) (m ((c : Thread nD τ).loc main_arg4)) := by
  dsimp only [V1, V0, hostOps0]
  after_results
  rfl

/-- The combined bias row the projection region is handed. -/
theorem entry_b (c : Dev nD) : V1 m c main_v13 = Stages.bcat (m ((c : Thread nD τ).loc main_arg5)) := by
  dsimp only [V1, V0, hostOps0]
  after_results
  rfl

/-- The coefficient column the combine region is handed, from the projection's output array. -/
theorem mid_coeff (c : Dev nD) :
    V11 m outs c main_v37
      = Stages.coeff (outs 2 main_v14 c) (m ((c : Thread nD τ).loc main_arg1)) (m ((c : Thread nD τ).loc main_arg3)) := by
  dsimp only [V11, V10, V9, V8, V7, V6, V5, V4, V3, hostOps1, hostOps1_1, hostOps1_2, hostOps1_3, hostOps1_4,
    hostOps1_5, hostOps1_6, hostOps1_7, hostOps1_8]
  after_results_simp
  rw [V2_out m outs c, V2_src m outs c, V2_dst m outs c, V2_bias m outs c]
  simp only [Cert.GraphConv.ofBuf_toBuf, ofBuf_v1, ofBuf_v3, ofBuf_v15, ofBuf_v16, ofBuf_v23, ofBuf_v25, ofBuf_v27,
    ofBuf_v31, toBuf_v18, toBuf_v19, toBuf_v28, toBuf_v32]
  unfold Stages.coeff Stages.coeffOf Stages.nodeSum4 Stages.ramp Stages.rawScore Stages.take4 Stages.inRange
    Stages.wrapCol Stages.wrap Stages.srcScores Stages.dstScores
  rfl

/-- The gathered feature rows the combine region is handed. -/
theorem mid_feat (c : Dev nD) :
    V11 m outs c main_v38 = Stages.featRows (outs 2 main_v14 c) (m ((c : Thread nD τ).loc main_arg1)) := by
  dsimp only [V11, V10, V9, V8, V7, V6, V5, V4, V3, hostOps1, hostOps1_1, hostOps1_2, hostOps1_3, hostOps1_4,
    hostOps1_5, hostOps1_6, hostOps1_7, hostOps1_8]
  after_results_simp
  rw [V2_out m outs c, V2_dst m outs c]
  simp only [Cert.GraphConv.ofBuf_toBuf, ofBuf_v3, ofBuf_v17, toBuf_v38]
  unfold Stages.featRows Stages.take128 Stages.inRange Stages.wrapCol Stages.wrap Stages.feats
  rfl

/-- The result, from the combine region's output array. -/
theorem last (c : Dev nD) :
    V14 m outs c main_v43 = Stages.finish (outs 12 main_v39 c) (m ((c : Thread nD τ).loc main_arg1)) := by
  dsimp only [V14, V13, hostOps2, hostOps2_1]
  after_results
  rw [V12_out m outs c, V12_src m outs c]
  rfl

end Cert.KernelIdeal.HostTerm

end
-- ==== Proof.Value.ProjArray.lean ====
/-
  The projection region's output array after its ten write-backs, on the extended reals: point t writes rows
  5000·t … 5000·t + 4999, and row n, column j of what it writes is the inner product of row n of the features with
  column j of the combined weights, plus entry j of the bias row (a matmul into a zero accumulator is the plain sum of
  products; a change of float format is the identity). The ten blocks tile the array.
-/
import proofs.«401222_j35476429865592_1_alg».proof.Proof.KernelIdeal.Proj
import proofs.«401222_j35476429865592_1_alg».proof.Proof.Value.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ProjArray

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The matmul at an index

The matmul contracts axis 1 of its left operand with axis 0 of its right operand: at output index (r, j) and
contraction index k it reads the left operand at (r, k) and the right operand at (k, j). -/

private theorem zeros2 : (![0, 0] : Fin 2 → Nat) = fun _ => 0 := funext fun a => by fin_cases a <;> rfl

private theorem lhs_row (i : S5000x136.Idx) (q : dot_S5000x256_S256x136_S5000x136_1_0_0_1_n_n.contr.Idx) :
    (dot_S5000x256_S256x136_S5000x136_1_0_0_1_n_n.lhsIdx i q 0).val = (i 0).val := by
  unfold DotDims.lhsIdx
  rw [dif_neg (show ¬(0 : Fin S5000x256.rank) ∈ dot_S5000x256_S256x136_S5000x136_1_0_0_1_n_n.lhsBatch by decide), dif_pos (show (0 : Fin S5000x256.rank) ∈ dot_S5000x256_S256x136_S5000x136_1_0_0_1_n_n.lhsNonContracting by decide)]
  rfl
private theorem lhs_col (i : S5000x136.Idx) (q : dot_S5000x256_S256x136_S5000x136_1_0_0_1_n_n.contr.Idx) :
    (dot_S5000x256_S256x136_S5000x136_1_0_0_1_n_n.lhsIdx i q 1).val = (q ⟨0, by decide⟩).val :=
  dot_S5000x256_S256x136_S5000x136_1_0_0_1_n_n.lhsIdx_val_of_single rfl i q
private theorem rhs_row (i : S5000x136.Idx) (q : dot_S5000x256_S256x136_S5000x136_1_0_0_1_n_n.contr.Idx) :
    (dot_S5000x256_S256x136_S5000x136_1_0_0_1_n_n.rhsIdx i q 0).val = (q ⟨0, by decide⟩).val :=
  dot_S5000x256_S256x136_S5000x136_1_0_0_1_n_n.rhsIdx_val_of_single rfl i q
private theorem rhs_col (i : S5000x136.Idx) (q : dot_S5000x256_S256x136_S5000x136_1_0_0_1_n_n.contr.Idx) :
    (dot_S5000x256_S256x136_S5000x136_1_0_0_1_n_n.rhsIdx i q 1).val = (i 1).val := by
  unfold DotDims.rhsIdx
  rw [dif_neg (show ¬(1 : Fin S256x136.rank) ∈ dot_S5000x256_S256x136_S5000x136_1_0_0_1_n_n.rhsBatch by decide), dif_pos (show (1 : Fin S256x136.rank) ∈ dot_S5000x256_S256x136_S5000x136_1_0_0_1_n_n.rhsNonContracting by decide)]
  rfl

/-- The matmul into a zero accumulator at (r, j): the inner product of row r of the left operand with column j of
    the right operand. -/
private theorem matmul_zero_apply (a : FVec Ideal S5000x256 .bf16) (b : FVec Ideal S256x136 .bf16) (r : Fin 5000) (j : Fin 136) :
    matmul dot_S5000x256_S256x136_S5000x136_1_0_0_1_n_n none a b (constant S5000x136 .f32 0x00000000#32) (ix2 r j)
      = ∑ k : Fin 256, a (ix2 r k) * b (ix2 k j) := by
  show FloatOps.matmul dot_S5000x256_S256x136_S5000x136_1_0_0_1_n_n none a b (constant S5000x136 .f32 0x00000000#32) (ix2 r j) = _
  rw [Ideal.matmul_constant_zero_apply, ← Equiv.sum_comp (ValueIdx.contrEquiv1 dot_S5000x256_S256x136_S5000x136_1_0_0_1_n_n 256 rfl rfl).symm]
  refine Finset.sum_congr rfl fun k _ => ?_
  have hk := ValueIdx.contrEquiv1_symm_val dot_S5000x256_S256x136_S5000x136_1_0_0_1_n_n 256 rfl rfl k
  have el : dot_S5000x256_S256x136_S5000x136_1_0_0_1_n_n.lhsIdx (ix2 r j) ((ValueIdx.contrEquiv1 dot_S5000x256_S256x136_S5000x136_1_0_0_1_n_n 256 rfl rfl).symm k) = ix2 r k := funext fun a => Fin.ext (by
    match a with
    | ⟨0, _⟩ => exact lhs_row _ _
    | ⟨1, _⟩ => exact (lhs_col _ _).trans hk)
  have er : dot_S5000x256_S256x136_S5000x136_1_0_0_1_n_n.rhsIdx (ix2 r j) ((ValueIdx.contrEquiv1 dot_S5000x256_S256x136_S5000x136_1_0_0_1_n_n 256 rfl rfl).symm k) = ix2 k j := funext fun a => Fin.ext (by
    match a with
    | ⟨0, _⟩ => exact (rhs_row _ _).trans hk
    | ⟨1, _⟩ => exact rhs_col _ _)
  rw [el, er]

/-! ## What one point computes -/

/-- The body's stored value at (r, j): the change of float format and the reshape to the same shape are identities, the
    matmul starts from zero, and the bias row is repeated down the rows, so it is the inner product of row r of the
    feature block with column j of the weights plus entry j of the bias row. -/
private theorem pay_apply (x0 : Vec Ideal S5000x256 .f32) (x1 : Vec Ideal S256x136 .f32) (x2 : Vec Ideal S1x136 .f32) (r : Fin 5000) (j : Fin 136) :
    k0_pay1 x0 x1 x2 (ix2 r j) = (∑ k : Fin 256, x0 (ix2 r k) * x1 (ix2 k j)) + x2 (ix2 0 j) := by
  unfold k0_pay1
  have hw : shapeCast S256x136 x1 shapeCasts_S256x136_S256x136 = x1 := shapeCast_self x1 _
  have hb : shapeCast S1x136 x2 shapeCasts_S1x136_S1x136 = x2 := shapeCast_self x2 _
  rw [hw, hb]
  refine (addf_apply _ _ (ix2 r j)).trans ?_
  exact congrArg₂ (· + ·) ((matmul_zero_apply _ _ r j).trans (Finset.sum_congr rfl fun k _ => rfl))
    (broadcastTo_1b_ab_apply x2 broadcasts_S1x136_S5000x136 r j)

/-- An entry z of the stored block is entry i of the whole-array function, as soon as the feature block's row of z is
    the features' row of i, the weight block's column of z is the weights' column of i, and the bias block's entry at
    z's column is the bias row's entry at i's column. -/
private theorem point_eq (X : FVec Ideal S50000x256 .f32) (W : FVec Ideal S256x136 .f32) (B : FVec Ideal S1x136 .f32)
    (x0 : Vec Ideal S5000x256 .f32) (x1 : Vec Ideal S256x136 .f32) (x2 : Vec Ideal S1x136 .f32)
    (z : S5000x136.Idx) (i : S50000x136.Idx)
    (h0 : ∀ k : Fin 256, x0 (ix2 (z 0) k) = X (ix2 (i 0) k))
    (h1 : ∀ k : Fin 256, x1 (ix2 k (z 1)) = W (ix2 k (i 1)))
    (h2 : x2 (ix2 0 (z 1)) = B (ix2 0 (i 1))) :
    k0_pay1 x0 x1 x2 z = Stages.projFn X W B i := by
  refine (congrArg (k0_pay1 x0 x1 x2) (eq_ix2 z)).trans ((pay_apply x0 x1 x2 (z 0) (z 1)).trans ?_)
  show _ = (∑ k : Fin 256, X (ix2 (i 0) k) * W (ix2 k (i 1))) + B (ix2 0 (i 1))
  rw [h2]
  exact congrArg (· + B (ix2 0 (i 1))) (Finset.sum_congr rfl fun k _ => by rw [h0 k, h1 k])

/-! ## From the ten blocks to the array -/

/-- The block index maps over the ten points: the feature and the output windows are at block (t, 0), the weight and
    the bias windows at block (0, 0). -/
private theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the whole-array function: a block coordinate is the block index times the
    block size plus the coordinate inside the block, so row y of the feature block is row 5000·t + y of the features,
    and the weight and bias blocks are the whole arrays. -/
private theorem flushed_eq (c : Dev nD) (t : Fin cfg0.N) :
    (Proj.dat (F := Ideal) V c).flushed 3 t
      = ((cfg0.win 3).blk t).view.read (Elt Ideal) (Stages.projFn (V c main_arg0) (V c main_v9) (V c main_v13)) := by
  show (cfg0.win 3).cut (cfg0.grid.coords t) ((Proj.dat (F := Ideal) V c).after 3 t) = _
  rw [Proj.after_out]
  unfold Proj.outBlk
  rw [View.canon_unit_zero zeros2]
  simp only [View.ld_unit_zero (S := S5000x256) zeros2, View.ld_unit_zero (S := S256x136) zeros2, View.ld_unit_zero (S := S1x136) zeros2]
  obtain ⟨e00, e01, e10, e11, e20, e21, e30, e31⟩ := index_facts t
  funext y
  have hy0 : (y 0).val < 5000 := (y 0).isLt
  have hy1 : (y 1).val < 136 := (y 1).isLt
  show k0_pay1 (Proj.blk V c 0 t) (Proj.blk V c 1 t) (Proj.blk V c 2 t) ((win0 3).xinj (grid0.coords t) y)
    = Stages.projFn (V c main_arg0) (V c main_v9) (V c main_v13) (((cfg0.win 3).blk t).view.emb y)
  refine point_eq (V c main_arg0) (V c main_v9) (V c main_v13) (Proj.blk V c 0 t) (Proj.blk V c 1 t) (Proj.blk V c 2 t)
    ((win0 3).xinj (grid0.coords t) y) (((cfg0.win 3).blk t).view.emb y) (fun k => ?_) (fun k => ?_) ?_
  · show V c main_arg0 (((cfg0.win 0).blk t).view.emb (ix2 ((win0 3).xinj (grid0.coords t) y 0) k)) = _
    refine congrArg (V c main_arg0) (funext fun a => Fin.ext ?_)
    match a with
    | ⟨0, _⟩ => show win0_0.index t (0 : Fin 2) * 5000 + 1 * (y 0).val = win0_3.index t (0 : Fin 2) * 5000 + 1 * (y 0).val; omega
    | ⟨1, _⟩ => show win0_0.index t (1 : Fin 2) * 256 + 1 * k.val = k.val; omega
  · show V c main_v9 (((cfg0.win 1).blk t).view.emb (ix2 k ((win0 3).xinj (grid0.coords t) y 1))) = _
    refine congrArg (V c main_v9) (funext fun a => Fin.ext ?_)
    match a with
    | ⟨0, _⟩ => show win0_1.index t (0 : Fin 2) * 256 + 1 * k.val = k.val; omega
    | ⟨1, _⟩ => show win0_1.index t (1 : Fin 2) * 136 + 1 * (y 1).val = win0_3.index t (1 : Fin 2) * 136 + 1 * (y 1).val; omega
  · show V c main_v13 (((cfg0.win 2).blk t).view.emb (ix2 0 ((win0 3).xinj (grid0.coords t) y 1))) = _
    refine congrArg (V c main_v13) (funext fun a => Fin.ext ?_)
    match a with
    | ⟨0, _⟩ => show win0_2.index t (0 : Fin 2) * 1 + 1 * 0 = 0; omega
    | ⟨1, _⟩ => show win0_2.index t (1 : Fin 2) * 136 + 1 * (y 1).val = win0_3.index t (1 : Fin 2) * 136 + 1 * (y 1).val; omega

/-- An index of the output array is in point t's block iff each coordinate is in the block's range on its axis. -/
private theorem mem_blk (t : Fin cfg0.N) (i : S50000x136.Idx) :
    i ∈ ((cfg0.win 3).blk t).view.set ↔ ∀ a : Fin 2, win0_3.index t a * S5000x136.size a ≤ (i a).val
      ∧ (i a).val < win0_3.index t a * S5000x136.size a + S5000x136.size a := by
  show i ∈ ((View.whole main_v14).slice (win0_3.rect t)).set ↔ _
  rw [View.set_slice_whole, Rect.mem_set_unit]
  exact Iff.rfl

/-- The ten blocks tile the array: row r is in the block of point r / 5000, and every block has all 136 columns. -/
private theorem cover (i : S50000x136.Idx) :
    ∃ t : Fin cfg0.N, (cfg0.win 3).flush t = true ∧ i ∈ ((cfg0.win 3).blk t).view.set := by
  have hi0 : (i 0).val < 50000 := (i 0).isLt
  have hi1 : (i 1).val < 136 := (i 1).isLt
  have hN : cfg0.N = 10 := by decide
  have ht : (i 0).val / 5000 < cfg0.N := by rw [hN]; omega
  obtain ⟨-, -, -, -, -, -, e30, e31⟩ := index_facts ⟨(i 0).val / 5000, ht⟩
  refine ⟨⟨(i 0).val / 5000, ht⟩, flush0_3 _, ?_⟩
  rw [mem_blk]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e30]
    show (i 0).val / 5000 * 5000 ≤ (i 0).val ∧ (i 0).val < (i 0).val / 5000 * 5000 + 5000
    omega
  | ⟨1, _⟩ =>
    show win0_3.index ⟨(i 0).val / 5000, ht⟩ (1 : Fin 2) * 136 ≤ (i 1).val
      ∧ (i 1).val < win0_3.index ⟨(i 0).val / 5000, ht⟩ (1 : Fin 2) * 136 + 136
    omega

/-- Every point writes its block of the whole-array function and the blocks cover the array, so the array ends holding
    that function. -/
theorem proj_array (c : Dev nD) :
    (Proj.dat (F := Ideal) V c).arrAt 3 cfg0.N = Stages.projFn (V c main_arg0) (V c main_v9) (V c main_v13) :=
  (Proj.dat (F := Ideal) V c).arrAt_eq_of_cover 3 (Stages.projFn (V c main_arg0) (V c main_v9) (V c main_v13))
    (fun t _ => flushed_eq V c t) cover

end Cert.KernelIdeal.ProjArray

end
-- ==== Proof.Value.CombArray.lean ====
/-
  The combine region's output array after its 160 write-backs, on the extended reals: point t writes rows
  10000·t … 10000·t + 9999, and row e of what it writes is the coefficient of edge e times row e of the gathered
  features. The 160 blocks tile the array.
-/
import proofs.«401222_j35476429865592_1_alg».proof.Proof.KernelIdeal.Combine
import proofs.«401222_j35476429865592_1_alg».proof.Proof.Value.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.CombArray

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

private theorem zero_offsets : (![0, 0] : Fin 2 → Nat) = fun _ => 0 := funext fun a => by fin_cases a <;> rfl

/-- The body's product at row r, lane j: the coefficient of row r times the entry (r, j) of the rows. The coefficient
    block has one column, repeated along the 128 lanes. -/
private theorem pay_apply (x0 : Vec Ideal S10000x1 .f32) (x1 : Vec Ideal S10000x128 .f32) (y : S10000x128.Idx) :
    k1_pay1 x0 x1 y = x0 (ix2 (y 0) 0) * x1 y := by
  unfold k1_pay1
  refine (mulf_apply _ _ y).trans ?_
  refine congr (congrArg HMul.hMul ?_) ?_
  · refine (broadcastTo_apply _ _ y (ix2 (y 0) 0) ?_).trans ?_
    · intro a
      match a with
      | ⟨0, _⟩ => exact (if_neg (show ¬ ((10000 : Nat) = 1) by decide)).symm
      | ⟨1, _⟩ => exact (if_pos (show ((1 : Nat) = 1) from rfl)).symm
    · exact congrFun (shapeCast_self x0 _) _
  · exact congrFun (shapeCast_self x1 _) y

/-- The three index maps at grid point t: each window's block row is t and its block column is 0. -/
private theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- One entry of one write-back: if the coefficient block's row y₀ is row i₀ of the coefficient column, and the rows block
    at y is the gathered rows at i, the product the body stores at y is the combine function at i. -/
private theorem point_eq (k : FVec Ideal S1600000x1 .f32) (f : FVec Ideal S1600000x128 .f32)
    (x0 : Vec Ideal S10000x1 .f32) (x1 : Vec Ideal S10000x128 .f32) (y : S10000x128.Idx) (i : S1600000x128.Idx)
    (h0 : x0 (ix2 (y 0) 0) = k (ix2 (i 0) 0)) (h1 : x1 y = f i) :
    k1_pay1 x0 x1 y = Stages.combFn k f i := by
  rw [pay_apply, h0, h1]
  rfl

/-- What grid point t writes back is block t of the combine function of the two arrays the region is handed: the body's
    stored product, entry by entry, with each staged block read at the rows 10000·t … 10000·t + 9999 of its array. -/
private theorem flushed_eq (c : Dev nD) (t : Fin cfg1.N) :
    (Combine.dat (F := Ideal) V c).flushed 2 t
      = ((cfg1.win 2).blk t).view.read (Elt Ideal) (Stages.combFn (V c main_v37) (V c main_v38)) := by
  show (cfg1.win 2).cut (grid1.coords t) ((Combine.dat (F := Ideal) V c).after 2 t) = _
  rw [Combine.after_out]
  unfold Combine.outBlk
  rw [View.canon_unit_zero zero_offsets]
  simp only [View.ld_unit_zero (S := S10000x1) zero_offsets, View.ld_unit_zero (S := S10000x128) zero_offsets]
  obtain ⟨e00, e01, e10, e11, e20, e21⟩ := idx_facts t
  refine funext fun (j : S10000x128.Idx) => ?_
  refine point_eq (V c main_v37) (V c main_v38) (Combine.blk V c 0 t) (Combine.blk V c 1 t) j
    (((cfg1.win 2).blk t).view.emb j) ?_ ?_
  · -- the coefficient block's row j₀ is row 10000·t + j₀ of the coefficient column
    show V c main_v37 (((cfg1.win 0).blk t).view.emb (ix2 (j 0) 0)) = _
    refine congrArg (V c main_v37) ?_
    funext a; apply Fin.ext
    match a with
    | ⟨0, _⟩ =>
      show win1_0.index t (0 : Fin 2) * 10000 + 1 * (j 0).val = win1_2.index t (0 : Fin 2) * 10000 + 1 * (j 0).val
      omega
    | ⟨1, _⟩ =>
      show win1_0.index t (1 : Fin 2) * 1 + 1 * 0 = 0
      omega
  · -- the rows block at (j₀, j₁) is entry (10000·t + j₀, j₁) of the gathered rows
    show V c main_v38 (((cfg1.win 1).blk t).view.emb j) = _
    refine congrArg (V c main_v38) ?_
    funext a; apply Fin.ext
    match a with
    | ⟨0, _⟩ =>
      show win1_1.index t (0 : Fin 2) * 10000 + 1 * (j 0).val = win1_2.index t (0 : Fin 2) * 10000 + 1 * (j 0).val
      omega
    | ⟨1, _⟩ =>
      show win1_1.index t (1 : Fin 2) * 128 + 1 * (j 1).val = win1_2.index t (1 : Fin 2) * 128 + 1 * (j 1).val
      omega

/-- An index of the output array is in grid point t's block iff each coordinate is in the block's range on its axis. -/
private theorem mem_blk (t : Fin cfg1.N) (i : S1600000x128.Idx) :
    i ∈ ((cfg1.win 2).blk t).view.set
      ↔ ∀ a : Fin 2, win1_2.index t a * S10000x128.size a ≤ (i a).val
          ∧ (i a).val < win1_2.index t a * S10000x128.size a + S10000x128.size a := by
  show i ∈ ((View.whole main_v39).slice (win1_2.rect t)).set ↔ _
  rw [View.set_slice_whole, Rect.mem_set_unit]
  exact Iff.rfl

/-- The 160 blocks tile the array: row r lies in the block of grid point r / 10000, and every point writes back. -/
private theorem cover (i : S1600000x128.Idx) :
    ∃ t : Fin cfg1.N, (cfg1.win 2).flush t = true ∧ i ∈ ((cfg1.win 2).blk t).view.set := by
  have hi0 : (i 0).val < 1600000 := (i 0).isLt
  have hi1 : (i 1).val < 128 := (i 1).isLt
  obtain ⟨t, ht⟩ : ∃ t : Fin cfg1.N, t.val = (i 0).val / 10000 :=
    ⟨⟨(i 0).val / 10000, by rw [show cfg1.N = 160 from N_1]; omega⟩, rfl⟩
  obtain ⟨-, -, -, -, e20, e21⟩ := idx_facts t
  refine ⟨t, flush1_2 t, ?_⟩
  rw [mem_blk]
  intro a
  match a with
  | ⟨0, _⟩ =>
    show win1_2.index t (0 : Fin 2) * 10000 ≤ (i 0).val ∧ (i 0).val < win1_2.index t (0 : Fin 2) * 10000 + 10000
    omega
  | ⟨1, _⟩ =>
    show win1_2.index t (1 : Fin 2) * 128 ≤ (i 1).val ∧ (i 1).val < win1_2.index t (1 : Fin 2) * 128 + 128
    omega

theorem comb_array (c : Dev nD) :
    (Combine.dat (F := Ideal) V c).arrAt 2 cfg1.N = Stages.combFn (V c main_v37) (V c main_v38) := by
  exact (Combine.dat (F := Ideal) V c).arrAt_eq_of_cover 2 (Stages.combFn (V c main_v37) (V c main_v38))
    (fun t _ => flushed_eq V c t) cover

end Cert.KernelIdeal.CombArray

end
-- ==== Proof.Value.KernelValue.lean ====
/-
  The kernel program's result as a function of its arguments, on the extended reals: the projection region's output
  array is the projection of the launch features by the combined weights and bias the first host stretch builds; the
  combine region's output array is the coefficient column times the gathered feature rows the middle stretches build
  from it; the last stretches sum per source node and clamp.
-/
import proofs.«401222_j35476429865592_1_alg».proof.Proof.KernelIdeal.Run
import proofs.«401222_j35476429865592_1_alg».proof.Proof.Value.HostTerm
import proofs.«401222_j35476429865592_1_alg».proof.Proof.Value.ProjArray
import proofs.«401222_j35476429865592_1_alg».proof.Proof.Value.CombArray

set_option maxRecDepth 16384

noncomputable section

namespace Cert.KernelIdeal.KernelValue

open Cert.KernelIdeal Cert.KernelIdeal.Gen Idealize.ShloMosaic Idealize.ShloMosaic.TcCoe Idealize.SL.Sem

variable (m : (ℓ : Loc nD τ sig) → Buf (Elt Ideal) ℓ)

/-- The kernel program's result of the launch arrays of core c. -/
abbrev resultOf (c : Dev nD) : Buf (Elt Ideal) ((c.tc : Thread nD τ).loc main_v43) :=
  Stages.result (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))

/-- What the projection region leaves in its output array. -/
theorem proj_out (c : Dev nD) :
    Run.outs m 2 main_v14 c
      = Stages.projFn (m ((c.tc : Thread nD τ).loc main_arg0))
          (Stages.wcat (m ((c.tc : Thread nD τ).loc main_arg2)) (m ((c.tc : Thread nD τ).loc main_arg4)))
          (Stages.bcat (m ((c.tc : Thread nD τ).loc main_arg5))) := by
  rw [Run.outs_proj, ProjArray.proj_array]
  show Stages.projFn (V1 m c main_arg0) (V1 m c main_v9) (V1 m c main_v13) = _
  rw [HostTerm.entry_x, HostTerm.entry_w, HostTerm.entry_b]

/-- What the combine region leaves in its output array. -/
theorem comb_out (c : Dev nD) :
    Run.outs m 12 main_v39 c
      = Stages.combFn
          (Stages.coeff (Run.outs m 2 main_v14 c) (m ((c.tc : Thread nD τ).loc main_arg1)) (m ((c.tc : Thread nD τ).loc main_arg3)))
          (Stages.featRows (Run.outs m 2 main_v14 c) (m ((c.tc : Thread nD τ).loc main_arg1))) := by
  rw [Run.outs_comb, CombArray.comb_array]
  show Stages.combFn (V11 m (Run.outsProj m) c main_v37) (V11 m (Run.outsProj m) c main_v38) = _
  rw [HostTerm.mid_coeff, HostTerm.mid_feat]
  rfl

/-- The result buffer at the last valuation. -/
theorem kernel_value (c : Dev nD) : V14 m (Run.outs m) c main_v43 = resultOf m c := by
  rw [HostTerm.last, comb_out, proj_out]
  rfl

/-- Every weakly fair execution of the kernel program terminates with its result at resultOf of the launch arrays
    and every argument array as launched. -/
theorem run (ρ : Dev nD → PrngReg) :
    θ_run defs (onTc (τ := τ) (main (F := Ideal))) ⟨m, fun _ => 0, ρ⟩ (fun r => ∀ c : Dev nD,
      r.2.mem ((c.tc : Thread nD τ).loc main_v43) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (Run.mem_uc main_v43 (by decide))).trans (kernel_value m c),
     (h c _ (Run.mem_uc main_arg0 (by decide))).trans (V14_main_arg0 m (Run.outs m) c),
     (h c _ (Run.mem_uc main_arg1 (by decide))).trans (V14_main_arg1 m (Run.outs m) c),
     (h c _ (Run.mem_uc main_arg2 (by decide))).trans (V14_main_arg2 m (Run.outs m) c),
     (h c _ (Run.mem_uc main_arg3 (by decide))).trans (V14_main_arg3 m (Run.outs m) c),
     (h c _ (Run.mem_uc main_arg4 (by decide))).trans (V14_main_arg4 m (Run.outs m) c),
     (h c _ (Run.mem_uc main_arg5 (by decide))).trans (V14_main_arg5 m (Run.outs m) c)⟩) (Run.run_main m ρ)

end Cert.KernelIdeal.KernelValue

end
-- ==== Proof.Value.PreDecode.lean ====
/-
  The precondition read back: where it holds, every destination index (row 1 of the edge array) lies in 0 … 49999.
-/
import proofs.«401222_j35476429865592_1_alg».proof.Defs
import proofs.«401222_j35476429865592_1_alg».proof.Proof.Gen.Pre_finite_inputs
import proofs.«401222_j35476429865592_1_alg».proof.Proof.Value.Stages
import Idealize.ShloMosaic.Lib.StableHlo.Predicate
import Idealize.ShloMosaic.Lib.ReduceAll
import Idealize.ShloMosaic.Lib.Pipeline.Value
import Idealize.ShloMosaic.Lib.ValueIdx

noncomputable section

namespace Cert.KernelIdeal.PreDecode

open Idealize.ShloMosaic Idealize.ShloMosaic.ValueIdx

/-- The scalar shape has exactly one index. -/
private instance : Subsingleton Cert.Pre_finite_inputs.S_.Idx := ⟨fun a b => funext fun d => d.elim0⟩

/-- A one-bit word made from a Boolean is 1 exactly when the Boolean is true. -/
private theorem ofBool_one (b : Bool) : BitVec.ofBool b = 1#1 ↔ b = true := by cases b <;> decide

/-- The two signed compares "w ≥ 0" and "w < 50000", both answering 1, bound the signed value of w. -/
private theorem range_of_cmp (w : BitVec 32)
    (h0 : IntOp.cmpi .sge w 0#32 = 1#1) (h1 : IntOp.cmpi .slt w 50000#32 = 1#1) :
    (0 : Int) ≤ w.toInt ∧ w.toInt < 50000 := by
  unfold IntOp.cmpi at h0 h1
  rw [ofBool_one] at h0 h1
  simp only [BitVec.slt, BitVec.sle, decide_eq_true_eq] at h0 h1
  have e0 : (0#32 : BitVec 32).toInt = 0 := by decide
  have e1 : (50000#32 : BitVec 32).toInt = 50000 := by decide
  rw [e0] at h0
  rw [e1] at h1
  exact ⟨h0, h1⟩

/-- Every destination index is at least 0 and below 50000, as signed words. -/
theorem dst_in_range {F : FTy → Type} [FloatOps F] [Cert.Pre_finite_inputs.Facts]
    (x0 : FVec F Cert.Pre_finite_inputs.S50000x256 .f32) (x1 : IVec Cert.Pre_finite_inputs.S2x1600000 32)
    (x2 : FVec F Cert.Pre_finite_inputs.S4x512 .f32) (x3 : FVec F Cert.Pre_finite_inputs.S4 .f32)
    (x4 : FVec F Cert.Pre_finite_inputs.S128x256 .f32) (x5 : FVec F Cert.Pre_finite_inputs.S128 .f32)
    (h : Cert.Pre_finite_inputs.fn (F := F) x0 x1 x2 x3 x4 x5 = fun _ => 1#1) :
    ∀ j : Cert.KernelIdeal.S1600000.Idx,
      (0 : Int) ≤ (Cert.KernelIdeal.Stages.dst x1 j).toInt ∧ (Cert.KernelIdeal.Stages.dst x1 j).toInt < 50000 := by
  intro j
  -- the predicate is a scalar: read it at its one index
  have e := congrFun h ix0
  dsimp only [Cert.Pre_finite_inputs.fn, Cert.Pre_finite_inputs.fn_part1, andi] at e
  -- the outer conjunction: keep its last conjunct, the "all" over the edges
  obtain ⟨-, e33⟩ := IntOp.andi_eq_one.1 e
  -- an "all" that is 1 is 1 at every edge
  have ej := Host.reduce_andi_all _ _ _ _ _ e33 j
  -- at edge j: both compares answer 1
  obtain ⟨hge, hlt⟩ := IntOp.andi_eq_one.1 ej
  exact range_of_cmp _ hge hlt

end Cert.KernelIdeal.PreDecode

end
-- ==== Proof.Value.Columns.lean ====
/-
  The three column ranges of the projection's output are the reference's three products: columns 0 … 3 the features
  times the transposed first half of the attention weights, columns 4 … 7 the same with the second half, columns
  8 … 135 the features times the transposed feature weights plus the feature bias. Column j of the combined weight
  matrix is a column of one of the three pieces, the bias row is zero on its first eight entries, and adding zero
  changes no extended real.
-/
import proofs.«401222_j35476429865592_1_alg».proof.Proof.Value.Stages
import proofs.«401222_j35476429865592_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Columns

open Idealize.ShloMosaic Idealize.ShloMosaic.ValueIdx
open Cert.KernelIdeal (S50000x256 S4x512 S128x256 S128)

variable (x : FVec Ideal S50000x256 .f32) (aw : FVec Ideal S4x512 .f32) (fw : FVec Ideal S128x256 .f32) (fb : FVec Ideal S128 .f32)

/-! ## The combined weight matrix and bias row read at an index -/

/-- Column j < 4 of the combined weights is row j of the first half of the attention weights. -/
private theorem wcat_lo (k : Fin 256) (j : Fin 4) :
    Stages.wcat aw fw (ix2 k (⟨j.val, by omega⟩ : Fin 136)) = aw (ix2 j (⟨k.val, by omega⟩ : Fin 512)) := by
  unfold Stages.wcat
  refine Eq.trans (concatenate_apply_piece (1 : Fin 2) _ _ (ix2 k (⟨j.val, by omega⟩ : Fin 136)) 0 ?_ S256x4 _ rfl rfl 0 rfl
    (ix2 k j) ?_ ?_) ?_
  · exact Nat.zero_lt_succ _
  · intro b hb
    match b with
    | ⟨0, _⟩ => rfl
    | ⟨1, _⟩ => exact absurd rfl hb
  · show 0 + j.val = j.val; omega
  refine Eq.trans (transpose_apply [1, 0] _ _ (ix2 k j) (ix2 j k) (fun b => match b with
    | ⟨0, _⟩ => rfl
    | ⟨1, _⟩ => rfl)) ?_
  exact extractStridedSlice_apply ![0, 0] aw _ (ix2 j k) _ (fun a => match a with
    | ⟨0, _⟩ => by show j.val = 0 + j.val; omega
    | ⟨1, _⟩ => by show k.val = 0 + k.val; omega)

/-- Column 4 + j (j < 4) of the combined weights is row j of the second half of the attention weights. -/
private theorem wcat_mid (k : Fin 256) (j : Fin 4) :
    Stages.wcat aw fw (ix2 k (⟨4 + j.val, by omega⟩ : Fin 136)) = aw (ix2 j (⟨256 + k.val, by omega⟩ : Fin 512)) := by
  unfold Stages.wcat
  refine Eq.trans (concatenate_apply_piece (1 : Fin 2) _ _ (ix2 k (⟨4 + j.val, by omega⟩ : Fin 136)) 1 ?_ S256x4 _ rfl rfl 4 rfl
    (ix2 k j) ?_ ?_) ?_
  · exact Nat.succ_lt_succ (Nat.zero_lt_succ _)
  · intro b hb
    match b with
    | ⟨0, _⟩ => rfl
    | ⟨1, _⟩ => exact absurd rfl hb
  · show 4 + j.val = 4 + j.val; rfl
  refine Eq.trans (transpose_apply [1, 0] _ _ (ix2 k j) (ix2 j k) (fun b => match b with
    | ⟨0, _⟩ => rfl
    | ⟨1, _⟩ => rfl)) ?_
  exact extractStridedSlice_apply ![0, 256] aw _ (ix2 j k) _ (fun a => match a with
    | ⟨0, _⟩ => by show j.val = 0 + j.val; omega
    | ⟨1, _⟩ => by show 256 + k.val = 256 + k.val; rfl)

/-- Column 8 + j (j < 128) of the combined weights is row j of the feature weights. -/
private theorem wcat_hi (k : Fin 256) (j : Fin 128) :
    Stages.wcat aw fw (ix2 k (⟨8 + j.val, by omega⟩ : Fin 136)) = fw (ix2 j k) := by
  unfold Stages.wcat
  refine Eq.trans (concatenate_apply_piece (1 : Fin 2) _ _ (ix2 k (⟨8 + j.val, by omega⟩ : Fin 136)) 2 ?_ S256x128 _ rfl rfl 8 rfl
    (ix2 k j) ?_ ?_) ?_
  · exact Nat.succ_lt_succ (Nat.succ_lt_succ (Nat.zero_lt_succ _))
  · intro b hb
    match b with
    | ⟨0, _⟩ => rfl
    | ⟨1, _⟩ => exact absurd rfl hb
  · show 8 + j.val = 8 + j.val; rfl
  exact transpose_apply [1, 0] fw _ (ix2 k j) (ix2 j k) (fun b => match b with
    | ⟨0, _⟩ => rfl
    | ⟨1, _⟩ => rfl)

/-- The first eight entries of the combined bias row are zero. -/
private theorem bcat_lo (j : Fin 136) (hj : j.val < 8) : Stages.bcat fb (ix2 (0 : Fin 1) j) = 0 := by
  unfold Stages.bcat
  refine Eq.trans (shapeCast_apply _ _ (ix2 (0 : Fin 1) j) (ix1 j)
    (by rewrite [Shape.rowMajor_val_two, Shape.rowMajor_val_one]; show j.val = 0 * 136 + j.val; omega)) ?_
  by_cases h4 : j.val < 4
  · refine Eq.trans (concatenate_apply_piece (0 : Fin 1) _ _ (ix1 j) 0 ?_ S4 _ rfl rfl 0 rfl
      (ix1 (⟨j.val, h4⟩ : Fin 4)) ?_ ?_) ?_
    · exact Nat.zero_lt_succ _
    · intro b hb
      match b with
      | ⟨0, _⟩ => exact absurd rfl hb
    · show 0 + j.val = j.val; omega
    exact Ideal.ofBits_zero_f32
  · refine Eq.trans (concatenate_apply_piece (0 : Fin 1) _ _ (ix1 j) 1 ?_ S4 _ rfl rfl 4 rfl
      (ix1 (⟨j.val - 4, by omega⟩ : Fin 4)) ?_ ?_) ?_
    · exact Nat.succ_lt_succ (Nat.zero_lt_succ _)
    · intro b hb
      match b with
      | ⟨0, _⟩ => exact absurd rfl hb
    · show 4 + (j.val - 4) = j.val; omega
    exact Ideal.ofBits_zero_f32

/-- Entry 8 + j (j < 128) of the combined bias row is entry j of the feature bias. -/
private theorem bcat_hi (j : Fin 128) : Stages.bcat fb (ix2 (0 : Fin 1) (⟨8 + j.val, by omega⟩ : Fin 136)) = fb (ix1 j) := by
  unfold Stages.bcat
  refine Eq.trans (shapeCast_apply _ _ (ix2 (0 : Fin 1) (⟨8 + j.val, by omega⟩ : Fin 136)) (ix1 (⟨8 + j.val, by omega⟩ : Fin 136))
    (by rewrite [Shape.rowMajor_val_two, Shape.rowMajor_val_one]; show 8 + j.val = 0 * 136 + (8 + j.val); omega)) ?_
  refine concatenate_apply_piece (0 : Fin 1) _ _ (ix1 (⟨8 + j.val, by omega⟩ : Fin 136)) 2 ?_ S128 fb rfl rfl 8 rfl (ix1 j) ?_ ?_
  · exact Nat.succ_lt_succ (Nat.succ_lt_succ (Nat.zero_lt_succ _))
  · intro b hb
    match b with
    | ⟨0, _⟩ => exact absurd rfl hb
  · show 8 + j.val = 8 + j.val; rfl

/-- Columns 0 … 3 of the projection are the features times the transposed first half of the attention weights. -/
theorem src_scores :
    Stages.srcScores (Stages.projFn x (Stages.wcat aw fw) (Stages.bcat fb))
      = Cert.ReferenceIdeal.Read.val_main_v7 (F := Ideal) x aw := by
  funext i
  obtain ⟨n, j, rfl⟩ : ∃ (n : Fin 50000) (j : Fin 4), i = ix2 n j := ⟨i 0, i 1, eq_ix2 i⟩
  unfold Stages.srcScores
  refine Eq.trans (extractStridedSlice_apply ![0, 0] _ _ (ix2 n j) (ix2 n (⟨j.val, by omega⟩ : Fin 136)) (fun a => match a with
    | ⟨0, _⟩ => by show n.val = 0 + n.val; omega
    | ⟨1, _⟩ => by show j.val = 0 + j.val; omega)) ?_
  show (∑ k : Fin 256, x (ix2 n k) * Stages.wcat aw fw (ix2 k (⟨j.val, by omega⟩ : Fin 136)))
      + Stages.bcat fb (ix2 (0 : Fin 1) (⟨j.val, by omega⟩ : Fin 136)) = _
  rw [bcat_lo fb _ (by show j.val < 8; omega), add_zero, Cert.ReferenceIdeal.Read.val_main_v7_apply]
  refine Finset.sum_congr rfl fun k _ => ?_
  rw [wcat_lo aw fw k j, Cert.ReferenceIdeal.Read.val_main_v6_apply, Cert.ReferenceIdeal.Read.val_main_v4_apply]
  refine congrArg₂ (· * ·) (congrArg x ?_) (congrArg aw ?_) <;>
    exact funext fun a => match a with
      | ⟨0, _⟩ => rfl
      | ⟨1, _⟩ => rfl

/-- Columns 4 … 7 of the projection are the features times the transposed second half of the attention weights. -/
theorem dst_scores :
    Stages.dstScores (Stages.projFn x (Stages.wcat aw fw) (Stages.bcat fb))
      = Cert.ReferenceIdeal.Read.val_main_v9 (F := Ideal) x aw := by
  funext i
  obtain ⟨n, j, rfl⟩ : ∃ (n : Fin 50000) (j : Fin 4), i = ix2 n j := ⟨i 0, i 1, eq_ix2 i⟩
  unfold Stages.dstScores
  refine Eq.trans (extractStridedSlice_apply ![0, 4] _ _ (ix2 n j) (ix2 n (⟨4 + j.val, by omega⟩ : Fin 136)) (fun a => match a with
    | ⟨0, _⟩ => by show n.val = 0 + n.val; omega
    | ⟨1, _⟩ => by show 4 + j.val = 4 + j.val; rfl)) ?_
  show (∑ k : Fin 256, x (ix2 n k) * Stages.wcat aw fw (ix2 k (⟨4 + j.val, by omega⟩ : Fin 136)))
      + Stages.bcat fb (ix2 (0 : Fin 1) (⟨4 + j.val, by omega⟩ : Fin 136)) = _
  rw [bcat_lo fb _ (by show 4 + j.val < 8; omega), add_zero, Cert.ReferenceIdeal.Read.val_main_v9_apply]
  refine Finset.sum_congr rfl fun k _ => ?_
  rw [wcat_mid aw fw k j, Cert.ReferenceIdeal.Read.val_main_v8_apply, Cert.ReferenceIdeal.Read.val_main_v5_apply]
  refine congrArg₂ (· * ·) (congrArg x ?_) (congrArg aw ?_) <;>
    exact funext fun a => match a with
      | ⟨0, _⟩ => rfl
      | ⟨1, _⟩ => rfl

/-- Columns 8 … 135 of the projection are the features times the transposed feature weights, plus the feature bias. -/
theorem feats :
    Stages.feats (Stages.projFn x (Stages.wcat aw fw) (Stages.bcat fb))
      = Cert.ReferenceIdeal.Read.val_main_v51 (F := Ideal) x fw fb := by
  funext i
  obtain ⟨n, j, rfl⟩ : ∃ (n : Fin 50000) (j : Fin 128), i = ix2 n j := ⟨i 0, i 1, eq_ix2 i⟩
  unfold Stages.feats
  refine Eq.trans (extractStridedSlice_apply ![0, 8] _ _ (ix2 n j) (ix2 n (⟨8 + j.val, by omega⟩ : Fin 136)) (fun a => match a with
    | ⟨0, _⟩ => by show n.val = 0 + n.val; omega
    | ⟨1, _⟩ => by show 8 + j.val = 8 + j.val; rfl)) ?_
  show (∑ k : Fin 256, x (ix2 n k) * Stages.wcat aw fw (ix2 k (⟨8 + j.val, by omega⟩ : Fin 136)))
      + Stages.bcat fb (ix2 (0 : Fin 1) (⟨8 + j.val, by omega⟩ : Fin 136)) = _
  rw [bcat_hi fb j, Cert.ReferenceIdeal.Read.val_main_v51_apply, Ideal.addf_def, Cert.ReferenceIdeal.Read.val_main_v48_apply,
    Cert.ReferenceIdeal.Read.val_main_v50_apply, Cert.ReferenceIdeal.Read.val_main_v49_apply]
  refine congrArg₂ (· + ·) (Finset.sum_congr rfl fun k _ => ?_) (congrArg fb (funext fun a => match a with
    | ⟨0, _⟩ => rfl))
  rw [wcat_hi aw fw k j, Cert.ReferenceIdeal.Read.val_main_v47_apply]
  refine congrArg₂ (· * ·) (congrArg x ?_) (congrArg fw ?_) <;>
    exact funext fun a => match a with
      | ⟨0, _⟩ => rfl
      | ⟨1, _⟩ => rfl

end Cert.KernelIdeal.Columns

end
-- ==== Proof.Value.Take.lean ====
/-
  jnp.take against a plain row gather. Per edge the range test says: the index, wrapped once by 50000 if negative, lies
  in 0 … 49999. Where it holds the taken row is the gathered row at the wrapped index; an index that is already in
  0 … 49999 is its own wrapping and passes the test.
-/
import proofs.«401222_j35476429865592_1_alg».proof.Proof.Value.Stages
import Idealize.ShloMosaic.Lib.StableHlo.Predicate
import Idealize.ShloMosaic.Lib.ReduceAll
import Idealize.ShloMosaic.Lib.Pipeline.Value
import Idealize.ShloMosaic.Lib.ValueIdx

noncomputable section

namespace Cert.KernelIdeal.Take

open Cert.KernelIdeal Cert.KernelIdeal.Gen Idealize.ShloMosaic Idealize.ShloMosaic.ValueIdx

variable {F : FTy → Type} [FloatOps F]

/-- The one-column array drops its second axis onto the edge vector. -/
private theorem reduces_col : S1600000x1.Reduces [1] S1600000 := by decide

/-- The wrapping at an edge: the index plus 50000 where it is negative, the index itself elsewhere. -/
private theorem wrap_apply (idx : IVec S1600000 32) (j : S1600000.Idx) :
    Stages.wrap idx j = Scalar.select (IntOp.cmpi .slt (idx j) 0#32) (IntOp.addi (idx j) 50000#32) (idx j) := rfl

/-- Entry (p, q) of the one-column array of wrapped indices is the wrapped index of edge p. -/
private theorem wrapCol_apply (idx : IVec S1600000 32) (p : Fin 1600000) (q : Fin 1) :
    Stages.wrapCol idx (ix2 p q) = Stages.wrap idx (ix1 p) := by
  unfold Stages.wrapCol
  exact broadcastInDim_apply _ _ _ _ _ (fun a => match a with | ⟨0, _⟩ => rfl)

/-- The entry of the one-column array over edge j, at column k, is (j, k). -/
private theorem lift_col (j : S1600000.Idx) (k : Fin 1) :
    reduces_col.lift j k = ix2 (j 0) k := by
  funext c
  match c with
  | ⟨0, _⟩ => exact Fin.ext rfl
  | ⟨1, _⟩ => exact Fin.ext rfl

/-- A fold over a one-element range is one application of the operation. -/
private theorem fold_fin_one {α : Type} (op : α → α → α) [Std.Commutative op] [Std.Associative op] (b : α) (f : Fin 1 → α) :
    (Finset.univ : Finset (Fin 1)).fold op b f = op (f 0) b := by
  rw [Finset.univ_unique, Finset.fold_singleton]
  rfl

/-- The range test at an edge: the AND over the one column is the two comparisons' bits of the wrapped index, and 1. -/
private theorem inRange_apply (idx : IVec S1600000 32) (j : S1600000.Idx) :
    Stages.inRange idx j = IntOp.andi
      (IntOp.andi (IntOp.cmpi .sge (Stages.wrap idx j) 0#32) (IntOp.cmpi .sle (Stages.wrap idx j) 49999#32)) 1#1 := by
  unfold Stages.inRange
  rw [Host.reduce_eq_fold_single IntOp.andi _ _ reducesTo_S1600000x1_S1600000_d1 reduces_col h_S_ j]
  refine (fold_fin_one IntOp.andi _ _).trans ?_
  have e : Stages.wrapCol idx (reduces_col.lift j (0 : Fin 1)) = Stages.wrap idx j :=
    (congrArg (Stages.wrapCol idx) (lift_col j 0)).trans
      ((wrapCol_apply idx (j 0) 0).trans (congrArg (Stages.wrap idx) (eq_ix1 j).symm))
  show IntOp.andi (IntOp.andi (IntOp.cmpi .sge (Stages.wrapCol idx (reduces_col.lift j (0 : Fin 1))) 0#32)
    (IntOp.cmpi .sle (Stages.wrapCol idx (reduces_col.lift j (0 : Fin 1))) 49999#32)) 1#1 = _
  rw [e]

/-- The range test, per edge. -/
theorem inRange_iff (idx : IVec S1600000 32) (j : S1600000.Idx) :
    Stages.inRange idx j = 1#1 ↔ ((0 : Int) ≤ (Stages.wrap idx j).toInt ∧ (Stages.wrap idx j).toInt ≤ 49999) := by
  rw [inRange_apply, IntOp.andi_eq_one, IntOp.andi_eq_one, IntOp.cmpi_sge, IntOp.cmpi_sle,
    show (0#32 : BitVec 32).toInt = 0 from by decide, show (49999#32 : BitVec 32).toInt = 49999 from by decide]
  exact ⟨fun h => h.1, fun h => ⟨h, rfl⟩⟩

/-- A non-negative index is its own wrapping. -/
theorem wrap_of_nonneg (idx : IVec S1600000 32) (j : S1600000.Idx) (h : (0 : Int) ≤ (idx j).toInt) :
    Stages.wrap idx j = idx j := by
  rw [wrap_apply]
  have hc : ¬ IntOp.cmpi .slt (idx j) 0#32 = 1#1 := by
    rw [IntOp.cmpi_slt, show (0#32 : BitVec 32).toInt = 0 from by decide]
    omega
  rw [eq_zero_of_ne_one hc, select_zero]

/-- An index in 0 … 49999 passes the range test. -/
theorem inRange_of_mem (idx : IVec S1600000 32) (j : S1600000.Idx) (h : (0 : Int) ≤ (idx j).toInt ∧ (idx j).toInt < 50000) :
    Stages.inRange idx j = 1#1 := by
  rw [inRange_iff, wrap_of_nonneg idx j h.1]
  exact ⟨h.1, by omega⟩

/-- Where the range test holds, the taken row is the gathered row. -/
theorem take4_of_inRange (tbl : FVec F S50000x4 .f32) (idx : IVec S1600000 32) (i : S1600000x4.Idx)
    (h : Stages.inRange idx (ix1 (i 0)) = 1#1) :
    Stages.take4 tbl idx i = Host.gather gather_S50000x4_S1600000x1_S1600000x4_1_0_n_n_0_1_14 tbl (Stages.wrapCol idx) i := by
  have e : broadcastInDim S1600000x4 ![0] bcast_S1600000_S1600000x4_0 (Stages.inRange idx) i = Stages.inRange idx (ix1 (i 0)) :=
    broadcastInDim_apply _ _ _ _ _ (fun a => match a with | ⟨0, _⟩ => rfl)
  unfold Stages.take4
  rw [select_apply, e, h, select_one]

theorem take128_of_inRange (tbl : FVec F S50000x128 .f32) (idx : IVec S1600000 32) (i : S1600000x128.Idx)
    (h : Stages.inRange idx (ix1 (i 0)) = 1#1) :
    Stages.take128 tbl idx i = Host.gather gather_S50000x128_S1600000x1_S1600000x128_1_0_n_n_0_1_1128 tbl (Stages.wrapCol idx) i := by
  have e : broadcastInDim S1600000x128 ![0] bcast_S1600000_S1600000x128_0 (Stages.inRange idx) i = Stages.inRange idx (ix1 (i 0)) :=
    broadcastInDim_apply _ _ _ _ _ (fun a => match a with | ⟨0, _⟩ => rfl)
  unfold Stages.take128
  rw [select_apply, e, h, select_one]

/-- With every index in 0 … 49999, taking rows is gathering them. -/
theorem take4_eq_gather (tbl : FVec F S50000x4 .f32) (idx : IVec S1600000 32)
    (h : ∀ j : S1600000.Idx, (0 : Int) ≤ (idx j).toInt ∧ (idx j).toInt < 50000) :
    Stages.take4 tbl idx = Host.gather gather_S50000x4_S1600000x1_S1600000x4_1_0_n_n_0_1_14 tbl (Stages.wrapCol idx) :=
  funext fun i => take4_of_inRange tbl idx i (inRange_of_mem idx _ (h _))

theorem take128_eq_gather (tbl : FVec F S50000x128 .f32) (idx : IVec S1600000 32)
    (h : ∀ j : S1600000.Idx, (0 : Int) ≤ (idx j).toInt ∧ (idx j).toInt < 50000) :
    Stages.take128 tbl idx = Host.gather gather_S50000x128_S1600000x1_S1600000x128_1_0_n_n_0_1_1128 tbl (Stages.wrapCol idx) :=
  funext fun i => take128_of_inRange tbl idx i (inRange_of_mem idx _ (h _))

end Cert.KernelIdeal.Take

end
-- ==== Proof.Value.Scatter.lean ====
/-
  Summing per source node only sees the edges whose source index is a node. On the extended reals the per-node sum
  adds, at node n, the updates of the edges whose index, read as a signed word and not clamped, is n; an edge whose
  index is outside 0 … 49999 lands nowhere. Such an index does pass the range test of jnp.take only if it is in
  0 … 49999 already (a negative one is wrapped by take but not by the sum), so two families of updates that agree on
  every edge passing the range test have the same per-node sums.
-/
import proofs.«401222_j35476429865592_1_alg».proof.Proof.Value.Stages
import Idealize.ShloMosaic.Lib.StableHlo.Predicate
import Idealize.ShloMosaic.Lib.ReduceAll
import Idealize.ShloMosaic.Lib.Pipeline.Value
import Idealize.ShloMosaic.Lib.ValueIdx
import Idealize.ShloMosaic.PureOps.Ideal.Laws

noncomputable section

namespace Cert.KernelIdeal.Scatter

open Cert.KernelIdeal Cert.KernelIdeal.Gen Idealize.ShloMosaic Idealize.ShloMosaic.ValueIdx

/-- A left fold by `and` from 1 over one-bit words that are all 1 is 1. -/
private theorem foldl_andi_one {ι : Type} (f : ι → BitVec 1) :
    ∀ (l : List ι) (init : BitVec 1), init = 1#1 → (∀ n ∈ l, f n = 1#1) →
      l.foldl (fun r n => IntOp.andi r (f n)) init = 1#1
  | [], init, h, _ => h
  | a :: l, init, h, hl => by
    rw [List.foldl_cons]
    exact foldl_andi_one f l _ (IntOp.andi_eq_one.2 ⟨h, hl a (List.mem_cons_self ..)⟩)
      (fun n hn => hl n (List.mem_cons_of_mem _ hn))

/-- An index that, read signed, is in 0 … 49999 passes the range test: wrapping leaves it alone and both compares hold. -/
private theorem inRange_of_bounds (idx : IVec S1600000 32) (p : Fin 1600000)
    (h0 : 0 ≤ (idx (ix1 p)).toInt) (h1 : (idx (ix1 p)).toInt < 50000) :
    Stages.inRange idx (ix1 p) = 1#1 := by
  unfold Stages.inRange
  rw [Host.reduce_eq_foldl]
  refine foldl_andi_one _ _ _ rfl ?_
  intro i hi
  rw [List.mem_filter] at hi
  have hd := of_decide_eq_true hi.2
  have hi0 : i 0 = p := by
    have := Shape.ReducesTo.drop_apply_val_of_eq reducesTo_S1600000x1_S1600000_d1 i 0 0
    rw [hd] at this
    exact Fin.ext this.symm
  -- the wrapped index at row i is the index itself
  have hw : Stages.wrapCol idx i = idx (ix1 p) := by
    unfold Stages.wrapCol
    rw [broadcastInDim_apply _ bcast_S1600000_S1600000x1_0 (Stages.wrap idx) i (ix1 p) (fun a => match a with
      | ⟨0, _⟩ => by show p.val = if (1600000 : Nat) = 1 then 0 else (i 0).val; rw [if_neg (by decide), hi0])]
    unfold Stages.wrap
    rw [select_apply]
    have hc : cmpi .slt idx (broadcastInDim S1600000 ![] bcast_S_S1600000 (constantI S_ 32 0#32)) (ix1 p) = 0#1 := by
      apply eq_zero_of_ne_one
      show ¬ IntOp.cmpi .slt (idx (ix1 p)) 0#32 = 1#1
      rw [IntOp.cmpi_slt, show (0#32 : BitVec 32).toInt = 0 from by decide]
      omega
    rw [hc, select_zero]
  show IntOp.andi (IntOp.cmpi .sge (Stages.wrapCol idx i) 0#32) (IntOp.cmpi .sle (Stages.wrapCol idx i) 49999#32) = 1#1
  rw [hw, IntOp.andi_eq_one, IntOp.cmpi_sge, IntOp.cmpi_sle, show (0#32 : BitVec 32).toInt = 0 from by decide,
    show (49999#32 : BitVec 32).toInt = 49999 from by decide]
  omega

/-- The scatter's dimension numbers at any column count: rows are scattered whole, the start index names the row. -/
private abbrev rowScatter (c : Nat) (wf : ScatterDims.WF ⟨2, ![50000, c]⟩ S1600000x1 ⟨2, ![1600000, c]⟩ [1] [0] [0] 1) :
    ScatterDims ⟨2, ![50000, c]⟩ S1600000x1 ⟨2, ![1600000, c]⟩ where
  updateWindowDims := [1]
  insertedWindowDims := [0]
  scatterDimsToOperandDims := [0]
  indexVectorDim := 1
  wf := wf

/-- An update row that lands somewhere has its start index, read signed, inside 0 … 49999. -/
private theorem bounds_of_lands (c : Nat) (wf : ScatterDims.WF ⟨2, ![50000, c]⟩ S1600000x1 ⟨2, ![1600000, c]⟩ [1] [0] [0] 1)
    (idx : IVec S1600000 32) (j : (⟨2, ![1600000, c]⟩ : Shape).Idx) (i : (⟨2, ![50000, c]⟩ : Shape).Idx)
    (hr : (rowScatter c wf).resultIdx? j (broadcastInDim S1600000x1 ![0] bcast_S1600000_S1600000x1_0 idx) = some i) :
    0 ≤ (idx (ix1 (j 0))).toInt ∧ (idx (ix1 (j 0))).toInt < 50000 := by
  unfold ScatterDims.resultIdx? at hr
  split at hr
  · rename_i h
    have h00 := h 0
    -- axis 0 is an inserted axis: no window coordinate
    have hwin : (rowScatter c wf).window j 0 = 0 :=
      dif_neg (show ¬ ((0 : Fin 2) ∈ (List.finRange 2).filter (· ∉ [(0 : Fin 2)])) by decide)
    -- axis 0 is the scattered axis: the start is the index column's word in the update's row
    have hstart : (rowScatter c wf).start j (broadcastInDim S1600000x1 ![0] bcast_S1600000_S1600000x1_0 idx) 0
        = (idx (ix1 (j 0))).toInt := by
      unfold ScatterDims.start
      rw [dif_pos (show (0 : Fin 2) ∈ [(0 : Fin 2)] by decide)]
      congr 1
      refine broadcastInDim_apply _ bcast_S1600000_S1600000x1_0 idx _ (ix1 (j 0)) (fun a => match a with
        | ⟨0, _⟩ => ?_)
      show (j 0).val = if (1600000 : Nat) = 1 then 0 else _
      rw [if_neg (by decide)]
      rfl
    rw [hwin, hstart] at h00
    simpa using h00
  · cases hr

/-- Summing rows per start index sees only the rows whose index passes the range test: two families of rows that agree
    on those have the same sums, at any column count. -/
private theorem scatterAdd_congr (c : Nat) (wf : ScatterDims.WF ⟨2, ![50000, c]⟩ S1600000x1 ⟨2, ![1600000, c]⟩ [1] [0] [0] 1)
    (x : FVec Ideal ⟨2, ![50000, c]⟩ .f32) (e : IVec S2x1600000 32) (v v' : FVec Ideal ⟨2, ![1600000, c]⟩ .f32)
    (h : ∀ i : (⟨2, ![1600000, c]⟩ : Shape).Idx, Stages.inRange (Stages.src e) (ix1 (i 0)) = 1#1 → v i = v' i) :
    Host.scatterAdd (rowScatter c wf) x (broadcastInDim S1600000x1 ![0] bcast_S1600000_S1600000x1_0 (Stages.src e)) v
      = Host.scatterAdd (rowScatter c wf) x (broadcastInDim S1600000x1 ![0] bcast_S1600000_S1600000x1_0 (Stages.src e)) v' := by
  funext i
  simp only [Host.scatterAdd, Ideal.hostScatterAdd_def, Ideal.hostScatterAdd]
  refine congrArg (fun z => x i + z) (Finset.sum_congr rfl (fun j hj => ?_))
  obtain ⟨h0, h1⟩ := bounds_of_lands c wf (Stages.src e) j i (Finset.mem_filter.1 hj).2
  exact h j (inRange_of_bounds _ _ h0 h1)

theorem nodeSum4_congr (v v' : FVec Ideal S1600000x4 .f32) (e : IVec S2x1600000 32)
    (h : ∀ i : S1600000x4.Idx, Stages.inRange (Stages.src e) (ix1 (i 0)) = 1#1 → v i = v' i) :
    Stages.nodeSum4 v e = Stages.nodeSum4 v' e :=
  scatterAdd_congr 4 scatter_S50000x4_S1600000x1_S1600000x4_1_0_0_1_wf _ e v v' h

theorem finish_congr (wt wt' : FVec Ideal S1600000x128 .f32) (e : IVec S2x1600000 32)
    (h : ∀ i : S1600000x128.Idx, Stages.inRange (Stages.src e) (ix1 (i 0)) = 1#1 → wt i = wt' i) :
    Stages.finish wt e = Stages.finish wt' e :=
  congrArg (fun z => maximumf z (broadcastInDim S50000x128 ![] bcast_S_S50000x128 (constant S_ .f32 0x00000000#32)))
    (scatterAdd_congr 128 scatter_S50000x128_S1600000x1_S1600000x128_1_0_0_1_wf _ e wt wt' h)

end Cert.KernelIdeal.Scatter

end
-- ==== Proof.Value.Tail.lean ====
/-
  The per-edge tail of both programs, from the three projected arrays (source scores, destination scores, projected
  features) to the result.

  The reference reads a row with a plain gather at the wrapped index; the kernel program with jnp.take, which agrees
  with the gather on every edge whose index passes the range test. For the destination index that is every edge (the
  precondition). For the source index it is every edge that matters: an edge whose source index fails the test lands
  nowhere in either per-node sum. So, edge by edge among those that pass: the scores agree, hence the ramped scores;
  the per-node sums of the ramped scores agree EVERYWHERE; hence the normalised scores, their mean over the heads (the
  coefficient) and the weighted rows agree on the edges that pass; hence the per-node sums of the weighted rows agree
  everywhere, and so do the clamped results.

  The kernel program hands the coefficient to its second region as a one-column array and multiplies inside the
  region; the reference broadcasts the coefficient along the 128 columns and multiplies: entry (e, j) of either is
  the coefficient of edge e times entry (e, j) of the gathered rows.
-/
import proofs.«401222_j35476429865592_1_alg».proof.Proof.Value.Stages
import proofs.«401222_j35476429865592_1_alg».proof.Proof.Value.Take
import proofs.«401222_j35476429865592_1_alg».proof.Proof.Value.Scatter
import proofs.«401222_j35476429865592_1_alg».proof.Proof.Gen.ReferenceIdeal.Read
import Idealize.ShloMosaic.Lib.Pipeline.Value
import Idealize.ShloMosaic.Lib.ValueIdx
import Idealize.ShloMosaic.PureOps.Ideal.Laws

noncomputable section

namespace Cert.KernelIdeal.Tail

open Cert.KernelIdeal Cert.KernelIdeal.Gen Idealize.ShloMosaic Idealize.ShloMosaic.ValueIdx

/-- A plain gather of four-column rows at the wrapped index. -/
abbrev gather4 (tbl : FVec Ideal S50000x4 .f32) (idx : IVec S1600000 32) : FVec Ideal S1600000x4 .f32 :=
  Host.gather gather_S50000x4_S1600000x1_S1600000x4_1_0_n_n_0_1_14 tbl (Stages.wrapCol idx)

/-- A plain gather of 128-column rows at the wrapped index. -/
abbrev gather128 (tbl : FVec Ideal S50000x128 .f32) (idx : IVec S1600000 32) : FVec Ideal S1600000x128 .f32 :=
  Host.gather gather_S50000x128_S1600000x1_S1600000x128_1_0_n_n_0_1_1128 tbl (Stages.wrapCol idx)

/-- The head bias laid along the edges. -/
abbrev biasRows (ab : FVec Ideal S4 .f32) : FVec Ideal S1600000x4 .f32 :=
  broadcastInDim S1600000x4 ![0, 1] bcast_S1x4_S1600000x4_0_1 (broadcastInDim S1x4 ![1] bcast_S4_S1x4_1 ab)

/-- The score before the ramp, rows read by plain gathers. -/
def rawScoreG (ss sd : FVec Ideal S50000x4 .f32) (e : IVec S2x1600000 32) (ab : FVec Ideal S4 .f32) : FVec Ideal S1600000x4 .f32 :=
  addf (addf (gather4 ss (Stages.src e)) (gather4 sd (Stages.dst e))) (biasRows ab)

/-- Per edge, the mean over the heads of the values divided by their source node's sums; the sums' rows read by
    jnp.take … -/
def meanK (v : FVec Ideal S1600000x4 .f32) (e : IVec S2x1600000 32) : FVec Ideal S1600000 .f32 :=
  Host.divf
    (Host.reduceAdd (Host.divf v (Stages.take4 (Stages.nodeSum4 v e) (Stages.src e))) (constant S_ .f32 0x00000000#32) reducesTo_S1600000x4_S1600000_d1 h_S_)
    (broadcastInDim S1600000 ![] bcast_S_S1600000 (constant S_ .f32 0x40800000#32))

/-- … or by a plain gather. -/
def meanG (v : FVec Ideal S1600000x4 .f32) (e : IVec S2x1600000 32) : FVec Ideal S1600000 .f32 :=
  Host.divf
    (Host.reduceAdd (Host.divf v (gather4 (Stages.nodeSum4 v e) (Stages.src e))) (constant S_ .f32 0x00000000#32) reducesTo_S1600000x4_S1600000_d1 h_S_)
    (broadcastInDim S1600000 ![] bcast_S_S1600000 (constant S_ .f32 0x40800000#32))

/-- The reference's tail: plain gathers, the coefficient multiplied along the columns. -/
def refTail (ss sd : FVec Ideal S50000x4 .f32) (fch : FVec Ideal S50000x128 .f32) (e : IVec S2x1600000 32) (ab : FVec Ideal S4 .f32) :
    FVec Ideal S50000x128 .f32 :=
  Stages.finish (fun i => meanG (Stages.ramp (rawScoreG ss sd e ab)) e (ix1 (i 0)) * gather128 fch (Stages.dst e) i) e

/-- The kernel program's tail. -/
def kerTail (ss sd : FVec Ideal S50000x4 .f32) (fch : FVec Ideal S50000x128 .f32) (e : IVec S2x1600000 32) (ab : FVec Ideal S4 .f32) :
    FVec Ideal S50000x128 .f32 :=
  Stages.finish (Stages.combFn (Stages.coeffOf (Stages.ramp (Stages.rawScore ss sd e ab)) e) (Stages.take128 fch (Stages.dst e))) e

variable (ss sd : FVec Ideal S50000x4 .f32) (fch : FVec Ideal S50000x128 .f32) (e : IVec S2x1600000 32) (ab : FVec Ideal S4 .f32)

/-! ## Edge by edge -/

/-- The scores agree on an edge whose source index passes the range test. -/
theorem rawScore_row (hdst : ∀ j : S1600000.Idx, (0 : Int) ≤ (Stages.dst e j).toInt ∧ (Stages.dst e j).toInt < 50000)
    (i : S1600000x4.Idx) (hi : Stages.inRange (Stages.src e) (ix1 (i 0)) = 1#1) :
    Stages.rawScore ss sd e ab i = rawScoreG ss sd e ab i := by
  unfold Stages.rawScore rawScoreG
  rw [addf_apply, addf_apply, addf_apply, addf_apply, Take.take4_of_inRange ss (Stages.src e) i hi,
    Take.take4_eq_gather sd (Stages.dst e) hdst]

/-- The ramp at an edge and head depends on the value there only. -/
theorem ramp_row (v v' : FVec Ideal S1600000x4 .f32) (i : S1600000x4.Idx) (h : v i = v' i) : Stages.ramp v i = Stages.ramp v' i := by
  unfold Stages.ramp
  rw [select_apply, select_apply, cmpf_apply, cmpf_apply, mulf_apply, mulf_apply, h]

/-- A quotient at an entry depends on the two entries there only. -/
theorem divf_row {s : Shape} (a a' b b' : FVec Ideal s .f32) (j : s.Idx) (ha : a j = a' j) (hb : b j = b' j) :
    Host.divf a b j = Host.divf a' b' j := by
  show FloatOps.hostDivf (a j) (b j) = FloatOps.hostDivf (a' j) (b' j)
  rw [ha, hb]

/-- The sum over the heads at an edge depends on that edge's row only. -/
theorem headSum_row (y y' : FVec Ideal S1600000x4 .f32) (j : S1600000.Idx) (h : ∀ i : S1600000x4.Idx, i 0 = j 0 → y i = y' i) :
    Host.reduceAdd y (constant S_ .f32 0x00000000#32) reducesTo_S1600000x4_S1600000_d1 h_S_ j
      = Host.reduceAdd y' (constant S_ .f32 0x00000000#32) reducesTo_S1600000x4_S1600000_d1 h_S_ j := by
  simp only [Host.reduceAdd, Ideal.hostReduceAdd_def]
  rw [Ideal.hostReduceAdd_single reducesTo_S1600000x4_S1600000_d1 (by decide),
    Ideal.hostReduceAdd_single reducesTo_S1600000x4_S1600000_d1 (by decide)]
  exact congrArg (_ + ·) (Finset.sum_congr rfl fun k _ => h _ (Fin.ext rfl))

/-- The mean over the heads agrees on an edge that passes, for values that agree on the edges that pass. -/
theorem mean_row (v v' : FVec Ideal S1600000x4 .f32)
    (hv : ∀ i : S1600000x4.Idx, Stages.inRange (Stages.src e) (ix1 (i 0)) = 1#1 → v i = v' i)
    (j : S1600000.Idx) (hj : Stages.inRange (Stages.src e) j = 1#1) :
    meanK v e j = meanG v' e j := by
  have hden : Stages.nodeSum4 v e = Stages.nodeSum4 v' e := Scatter.nodeSum4_congr v v' e hv
  have hj' : ∀ i : S1600000x4.Idx, i 0 = j 0 → Stages.inRange (Stages.src e) (ix1 (i 0)) = 1#1 := fun i hi => by
    rw [hi]; exact (congrArg (Stages.inRange (Stages.src e)) (funext fun a => by match a with | ⟨0, _⟩ => rfl)).trans hj
  unfold meanK meanG
  exact divf_row _ _ _ _ j
    (headSum_row _ _ j fun i hi => divf_row _ _ _ _ i (hv i (hj' i hi))
      (by rw [Take.take4_of_inRange _ (Stages.src e) i (hj' i hi), hden]))
    rfl

/-- The kernel program's weighted row: the coefficient column times the rows, read at an entry. -/
theorem comb_row (v : FVec Ideal S1600000x4 .f32) (g : FVec Ideal S1600000x128 .f32) (i : S1600000x128.Idx) :
    Stages.combFn (Stages.coeffOf v e) g i = meanK v e (ix1 (i 0)) * g i := by
  unfold Stages.combFn Stages.coeffOf
  refine congrArg (· * g i) ?_
  exact shapeCast_apply _ shapeCasts_S1600000_S1600000x1 (ix2 (i 0) 0) (ix1 (i 0)) (by
    rw [Shape.rowMajor_val_one, Shape.rowMajor_val_two]; show (i 0).val = (i 0).val * 1 + 0; omega)

/-! ## The two tails are one function -/

theorem tail_eq (hdst : ∀ j : S1600000.Idx, (0 : Int) ≤ (Stages.dst e j).toInt ∧ (Stages.dst e j).toInt < 50000) :
    kerTail ss sd fch e ab = refTail ss sd fch e ab := by
  unfold kerTail refTail
  refine Scatter.finish_congr _ _ e fun i hi => ?_
  rw [comb_row, Take.take128_eq_gather fch (Stages.dst e) hdst]
  refine congrArg (· * _) ?_
  exact mean_row e _ _ (fun i' hi' => ramp_row _ _ i' (rawScore_row ss sd e ab hdst i' hi')) (ix1 (i 0)) hi

/-! ## The reference's stages are this tail -/

section Ref
open Cert.ReferenceIdeal.Read

variable (x0 : FVec Ideal S50000x256 .f32) (x1 : IVec S2x1600000 32) (x2 : FVec Ideal S4x512 .f32) (x3 : FVec Ideal S4 .f32)
  (x4 : FVec Ideal S128x256 .f32) (x5 : FVec Ideal S128 .f32)

theorem ref_src : val_main_v1 (F := Ideal) x1 = Stages.src x1 := rfl
theorem ref_dst : val_main_v3 (F := Ideal) x1 = Stages.dst x1 := rfl
theorem ref_wrap_src : val_main_v15 (F := Ideal) x1 = Stages.wrapCol (Stages.src x1) := rfl
theorem ref_wrap_dst : val_main_v22 (F := Ideal) x1 = Stages.wrapCol (Stages.dst x1) := rfl
theorem ref_wrap_src' : val_main_v41 (F := Ideal) x1 = Stages.wrapCol (Stages.src x1) := rfl
theorem ref_wrap_dst' : val_main_v58 (F := Ideal) x1 = Stages.wrapCol (Stages.dst x1) := rfl

theorem ref_raw : val_main_v27 (F := Ideal) x0 x1 x2 x3
    = rawScoreG (val_main_v7 (F := Ideal) x0 x2) (val_main_v9 (F := Ideal) x0 x2) x1 x3 := by
  unfold val_main_v27 val_main_v24 val_main_v16 val_main_v23 val_main_v26 val_main_v25 rawScoreG
  rw [ref_wrap_src, ref_wrap_dst]; rfl

theorem ref_ramp : val_main_v32 (F := Ideal) x0 x1 x2 x3
    = Stages.ramp (rawScoreG (val_main_v7 (F := Ideal) x0 x2) (val_main_v9 (F := Ideal) x0 x2) x1 x3) := by
  unfold val_main_v32 val_main_v29 val_main_v31 val_main_v28 val_main_v30 val_main_cst val_main_cst_3
  rw [ref_raw]; rfl

theorem ref_den : (val_main_v35 (F := Ideal) x0 x1 x2 x3 : FVec Ideal S50000x4 .f32)
    = Stages.nodeSum4 (F := Ideal) (val_main_v32 (F := Ideal) x0 x1 x2 x3) x1 := by
  unfold val_main_v35 val_main_v33 val_main_v34 val_main_cst_4
  rw [ref_src]; rfl

theorem ref_mean : val_main_v46 (F := Ideal) x0 x1 x2 x3 = meanG (val_main_v32 (F := Ideal) x0 x1 x2 x3) x1 := by
  unfold val_main_v46 val_main_v44 val_main_v43 val_main_v42 val_main_v45 val_main_cst_7 val_main_cst_8 meanG
  rw [ref_den, ref_wrap_src']; rfl

theorem ref_rows : val_main_v59 (F := Ideal) x0 x1 x4 x5 = gather128 (val_main_v51 (F := Ideal) x0 x4 x5) (Stages.dst x1) := by
  unfold val_main_v59
  rw [ref_wrap_dst']; rfl

/-- The reference's weighted rows, read at an entry. -/
theorem ref_weighted (i : S1600000x128.Idx) :
    val_main_v61 (F := Ideal) x0 x1 x2 x3 x4 x5 i
      = meanG (val_main_v32 (F := Ideal) x0 x1 x2 x3) x1 (ix1 (i 0)) * gather128 (val_main_v51 (F := Ideal) x0 x4 x5) (Stages.dst x1) i := by
  rw [val_main_v61_apply, val_main_v60_apply, val_main_v52_apply, ref_mean, ref_rows]
  refine congrArg (· * _) (congrArg (meanG _ x1) ?_)
  exact funext fun a => by match a with | ⟨0, _⟩ => rfl

theorem ref_eq : val_main_v65 (F := Ideal) x0 x1 x2 x3 x4 x5
    = refTail (val_main_v7 (F := Ideal) x0 x2) (val_main_v9 (F := Ideal) x0 x2) (val_main_v51 (F := Ideal) x0 x4 x5) x1 x3 := by
  unfold val_main_v65 val_main_v64 val_main_v62 val_main_v63 val_main_call1_v0 val_main_call1_cst val_main_cst_11 refTail Stages.finish
  rw [ref_src, show val_main_v61 (F := Ideal) x0 x1 x2 x3 x4 x5
      = fun i => meanG (val_main_v32 (F := Ideal) x0 x1 x2 x3) x1 (ix1 (i 0)) * gather128 (val_main_v51 (F := Ideal) x0 x4 x5) (Stages.dst x1) i
    from funext (ref_weighted x0 x1 x2 x3 x4 x5), ref_ramp]
  rfl

end Ref

end Cert.KernelIdeal.Tail

end
-- ==== Proof.Value.Bridge.lean ====
/-
  The two programs compute one function wherever every destination index is in range: the kernel program's result is
  its tail applied to the three column ranges of the one projection; those are the reference's three projections; the
  two tails agree; and the reference's last stage is its tail of its three projections.
-/
import proofs.«401222_j35476429865592_1_alg».proof.Proof.Value.Stages
import proofs.«401222_j35476429865592_1_alg».proof.Proof.Value.Columns
import proofs.«401222_j35476429865592_1_alg».proof.Proof.Value.Tail
import proofs.«401222_j35476429865592_1_alg».proof.Proof.Gen.ReferenceIdeal.Read

noncomputable section

namespace Cert.KernelIdeal.Bridge

open Idealize.ShloMosaic Idealize.ShloMosaic.ValueIdx

theorem result_eq (x0 : FVec Ideal Cert.KernelIdeal.S50000x256 .f32) (x1 : IVec Cert.KernelIdeal.S2x1600000 32)
    (x2 : FVec Ideal Cert.KernelIdeal.S4x512 .f32) (x3 : FVec Ideal Cert.KernelIdeal.S4 .f32)
    (x4 : FVec Ideal Cert.KernelIdeal.S128x256 .f32) (x5 : FVec Ideal Cert.KernelIdeal.S128 .f32)
    (hdst : ∀ j : Cert.KernelIdeal.S1600000.Idx,
      (0 : Int) ≤ (Cert.KernelIdeal.Stages.dst x1 j).toInt ∧ (Cert.KernelIdeal.Stages.dst x1 j).toInt < 50000) :
    Cert.KernelIdeal.Stages.result x0 x1 x2 x3 x4 x5
      = Cert.ReferenceIdeal.Read.val_main_v65 (F := Ideal) x0 x1 x2 x3 x4 x5 := by
  have hk : Cert.KernelIdeal.Stages.result x0 x1 x2 x3 x4 x5
      = Tail.kerTail
          (Stages.srcScores (Stages.projFn x0 (Stages.wcat x2 x4) (Stages.bcat x5)))
          (Stages.dstScores (Stages.projFn x0 (Stages.wcat x2 x4) (Stages.bcat x5)))
          (Stages.feats (Stages.projFn x0 (Stages.wcat x2 x4) (Stages.bcat x5))) x1 x3 := rfl
  rw [hk, Tail.tail_eq _ _ _ x1 x3 hdst, Columns.src_scores, Columns.dst_scores, Columns.feats]
  exact (Tail.ref_eq x0 x1 x2 x3 x4 x5).symm

end Cert.KernelIdeal.Bridge

end
-- ==== Proof.lean ====
/-
  A graph attention layer on 50000 nodes and 1600000 edges: per edge and head the score is the leaky ramp of
  (source projection + destination projection + head bias); each score is divided by the sum of the scores of the
  edges leaving the same source node; the mean over the four heads is the edge's coefficient; the result at a node is
  the sum, over the edges leaving it, of the coefficient times the projected features of the edge's destination,
  clamped at zero.

  The kernel program computes the three projections in ONE pallas_call — the features times the three weight
  matrices laid side by side, plus a bias row that is zero on the eight score columns — and the coefficient-times-row
  products in a second one; everything between is the same array arithmetic as the reference's, with jnp.take in place
  of plain indexing. On the extended reals the two agree: a column of the side-by-side product is a column of one of
  the three products, adding zero changes nothing, a change of float format is the identity, and jnp.take differs from
  plain indexing only where an index is out of range — never for a destination index in 0 … 49999 (the precondition),
  and for a source index only on edges that both per-node sums drop.

  The frames: @main is fourteen items, host operations and two kernel regions; each region's body loads its staged
  blocks whole, computes and stores the output block whole, so every execution terminates and no item writes an
  argument array. The reference has no kernel: its run is read back operation by operation.
-/
import proofs.«401222_j35476429865592_1_alg».proof.Defs
import proofs.«401222_j35476429865592_1_alg».proof.Proof.Gen.Kernel
import proofs.«401222_j35476429865592_1_alg».proof.Proof.Gen.KernelIdeal
import proofs.«401222_j35476429865592_1_alg».proof.Proof.Gen.ReferenceIdeal
import proofs.«401222_j35476429865592_1_alg».proof.Proof.Gen.Pre_finite_inputs
import proofs.«401222_j35476429865592_1_alg».proof.Proof.Gen.ReferenceIdeal.Run
import proofs.«401222_j35476429865592_1_alg».proof.Proof.Gen.ReferenceIdeal.Read
import proofs.«401222_j35476429865592_1_alg».proof.Proof.Kernel.Run
import proofs.«401222_j35476429865592_1_alg».proof.Proof.KernelIdeal.Run
import proofs.«401222_j35476429865592_1_alg».proof.Proof.Value.KernelValue
import proofs.«401222_j35476429865592_1_alg».proof.Proof.Value.PreDecode
import proofs.«401222_j35476429865592_1_alg».proof.Proof.Value.Bridge
import Idealize.ShloMosaic.Adequacy
import Idealize.ShloMosaic.Init

noncomputable section

namespace Cert.Proof

open Idealize.ShloMosaic Idealize.SL.Sem

/-- The word-level kernel program runs to the end and leaves its arguments as launched. -/
theorem frame_kernel : Cert.frame_Kernel := fun m ρ _ => Cert.Kernel.Run.frame m ρ

/-- So does its idealization. -/
theorem frame_kernel_ideal : Cert.frame_KernelIdeal := fun m ρ _ => Cert.KernelIdeal.Run.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments, with every destination index in range, both programs end with the same
    array: the kernel's at its result function of the launch arrays, the reference's at its last stage of the same
    arrays, and the two are one function. -/
theorem algebraic : Cert.algebraic_KernelIdeal_ReferenceIdeal := by
  intro m ρ m' ρ' hpre hagree
  refine ⟨Cert.KernelIdeal.KernelValue.resultOf m, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v65_eq, (hagree c).1, (hagree c).2.1, (hagree c).2.2.1, (hagree c).2.2.2.1,
    (hagree c).2.2.2.2.1, (hagree c).2.2.2.2.2]
  exact (Cert.KernelIdeal.Bridge.result_eq _ _ _ _ _ _
    (Cert.KernelIdeal.PreDecode.dst_in_range _ _ _ _ _ _ (hpre c))).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
